-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S64x128 : Shape := ⟨2, ![64, 128]⟩
abbrev S1x128 : Shape := ⟨2, ![1, 128]⟩
abbrev S100x100x10000 : Shape := ⟨3, ![100, 100, 10000]⟩
abbrev S1x100x10000 : Shape := ⟨3, ![1, 100, 10000]⟩
abbrev S200x128 : Shape := ⟨2, ![200, 128]⟩
abbrev S100x10000 : Shape := ⟨2, ![100, 10000]⟩
abbrev S100x128 : Shape := ⟨2, ![100, 128]⟩

abbrev nBuf : Space → Nat
  | .hbm => 16
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S_, .f32⟩
  | .hbm, ⟨7, _⟩ => ⟨S64x128, .f32⟩
  | .hbm, ⟨8, _⟩ => ⟨S64x128, .f32⟩
  | .hbm, ⟨9, _⟩ => ⟨S128x128, .f32⟩
  | .hbm, ⟨10, _⟩ => ⟨S64x128, .f32⟩
  | .hbm, ⟨11, _⟩ => ⟨S128x128, .f32⟩
  | .hbm, ⟨12, _⟩ => ⟨S1x128, .f32⟩
  | .hbm, ⟨13, _⟩ => ⟨S100x100x10000, .f32⟩
  | .hbm, ⟨14, _⟩ => ⟨S100x100x10000, .f32⟩
  | .hbm, ⟨15, _⟩ => ⟨S10000x128, .f32⟩
  | .local _ .vmem, ⟨0, _⟩ => ⟨S1x100x10000, .f32⟩
  | .local _ .vmem, ⟨1, _⟩ => ⟨S1x100x10000, .f32⟩
  | .local _ .vmem, ⟨2, _⟩ => ⟨S1x100x10000, .f32⟩
  | .local _ .vmem, ⟨3, _⟩ => ⟨S1x100x10000, .f32⟩
  | .local _ .vmem, ⟨4, _⟩ => ⟨S1x100x10000, .f32⟩
  | .local _ .vmem, ⟨5, _⟩ => ⟨S1x100x10000, .f32⟩
  | .local _ .vmem, ⟨6, _⟩ => ⟨S1x100x10000, .f32⟩
  | .local _ .vmem, ⟨7, _⟩ => ⟨S1x100x10000, .f32⟩
  | .local _ .vmem, ⟨8, _⟩ => ⟨S10000x128, .f32⟩
  | .local _ .vmem, ⟨9, _⟩ => ⟨S128x128, .f32⟩
  | .local _ .vmem, ⟨10, _⟩ => ⟨S128x128, .f32⟩
  | .local _ .vmem, ⟨11, _⟩ => ⟨S1x128, .f32⟩
  | .local _ .vmem, ⟨12, _⟩ => ⟨S200x128, .f32⟩
  | .local _ .vmem, ⟨13, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x100x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x100x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x100x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x100x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S10000x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S200x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S128x128_S128x128_1_0 : S128x128.Transposes [1, 0] S128x128
  bcast_S_S64x128 : S_.BroadcastsInDim S64x128 (![] : Fin 0 → Fin S64x128.rank)
  slices_S128x128_S64x128_0_0 : S128x128.Slices ![0, 0] S64x128
  concatenates_S64x128_S64x128_S128x128_d0 : Shape.Concatenates [S64x128, S64x128] S128x128 0
  slices_S128x128_S64x128_64_0 : S128x128.Slices ![64, 0] S64x128
  shapeCasts_S128_S1x128 : S128.ShapeCasts S1x128
  shapeCasts_S10000x10000_S100x100x10000 : S10000x10000.ShapeCasts S100x100x10000
  inb_S10000x128_S10000x128_0_0 : ∀ a, (![0, 0] : Fin 2 → Nat) a + S10000x128.size a ≤ S10000x128.size a
  h_S10000x128 : 0 < S10000x128.numel
  inb_S1x100x10000_S1x100x10000_0_0_0 : ∀ a, (![0, 0, 0] : Fin 3 → Nat) a + S1x100x10000.size a ≤ S1x100x10000.size a
  h_S1x100x10000 : 0 < S1x100x10000.numel
  shapeCasts_S1x100x10000_S100x10000 : S1x100x10000.ShapeCasts S100x10000
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S100x128 : S1x128.Broadcasts S100x128
  inb_S200x128_S100x128_0_0 : ∀ a, (![0, 0] : Fin 2 → Nat) a + S100x128.size a ≤ S200x128.size a
  h_S100x128 : 0 < S100x128.numel
  inb_S200x128_S100x128_100_0 : ∀ a, (![100, 0] : Fin 2 → Nat) a + S100x128.size a ≤ S200x128.size a
  dot_S100x10000_S10000x128_S100x128_1_0_0_1_n_n_wf : DotDims.WF S100x10000 S10000x128 S100x128 [1] [0] [0] [1] [] []
  dot_S100x128_S128x128_S100x128_1_0_0_1_n_n_wf : DotDims.WF S100x128 S128x128 S100x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x100x10000.size a ≤ S100x100x10000.size a
  hwx0_0 : ∀ i : grid0.Coords, EltTy.bits .f32 = 32 ∨ (Rect.block (s := S100x100x10000) S1x100x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x100x10000.size a ≤ S100x100x10000.size a
  hwx0_1 : ∀ i : grid0.Coords, EltTy.bits .f32 = 32 ∨ (Rect.block (s := S100x100x10000) S1x100x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x100x10000.size a ≤ S100x100x10000.size a
  hwx0_2 : ∀ i : grid0.Coords, EltTy.bits .f32 = 32 ∨ (Rect.block (s := S100x100x10000) S1x100x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x100x10000.size a ≤ S100x100x10000.size a
  hwx0_3 : ∀ i : grid0.Coords, EltTy.bits .f32 = 32 ∨ (Rect.block (s := S100x100x10000) S1x100x10000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S10000x128.size a
  hwx0_4 : ∀ i : grid0.Coords, EltTy.bits .f32 = 32 ∨ (Rect.block (s := S10000x128) S10000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S200x128.size a ≤ S10000x128.size a
  hwx0_8 : ∀ i : grid0.Coords, EltTy.bits .f32 = 32 ∨ (Rect.block (s := S10000x128) S200x128.size (cc0_transform_8 i) (hinb0_8 i)).WholeWords (EltTy.packing .f32)

variable [Facts₀]

def dot_S100x10000_S10000x128_S100x128_1_0_0_1_n_n : DotDims S100x10000 S10000x128 S100x128 where
  lhsContracting := [1]
  rhsContracting := [0]
  lhsNonContracting := [0]
  rhsNonContracting := [1]
  lhsBatch := []
  rhsBatch := []
  wf := dot_S100x10000_S10000x128_S100x128_1_0_0_1_n_n_wf
def dot_S100x128_S128x128_S100x128_1_0_0_1_n_n : DotDims S100x128 S128x128 S100x128 where
  lhsContracting := [1]
  rhsContracting := [0]
  lhsNonContracting := [0]
  rhsNonContracting := [1]
  lhsBatch := []
  rhsBatch := []
  wf := dot_S100x128_S128x128_S100x128_1_0_0_1_n_n_wf

abbrev win0_0 : Pipeline.Window sig grid0 :=
  Pipeline.Window.ofSpec (Memref.whole main_call0_v7) S1x100x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v7) S1x100x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v8) S1x100x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S1x100x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S10000x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v5) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v6) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S200x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S10000x64 : Shape := ⟨2, ![10000, 64]⟩
abbrev S1x128 : Shape := ⟨2, ![1, 128]⟩

abbrev nBuf : Space → Nat
  | .hbm => 15
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S10000x64, .f32⟩
  | .hbm, ⟨6, _⟩ => ⟨S10000x64, .f32⟩
  | .hbm, ⟨7, _⟩ => ⟨S10000x64, .f32⟩
  | .hbm, ⟨8, _⟩ => ⟨S10000x64, .f32⟩
  | .hbm, ⟨9, _⟩ => ⟨S10000x128, .f32⟩
  | .hbm, ⟨10, _⟩ => ⟨S128x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  slices_S10000x128_S10000x64_0_0 : S10000x128.Slices ![0, 0] S10000x64
  slices_S10000x128_S10000x64_0_64 : S10000x128.Slices ![0, 64] S10000x64
  concatenates_S10000x64_S10000x64_S10000x128_d1 : Shape.Concatenates [S10000x64, S10000x64] S10000x128 1
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x10000_S10000x64_S10000x64_1_0_0_1_n_n_wf : DotDims.WF S10000x10000 S10000x64 S10000x64 [1] [0] [0] [1] [] []
  dot_S10000x128_S128x128_S10000x128_1_0_0_1_n_n_wf : DotDims.WF S10000x128 S128x128 S10000x128 [1] [0] [0] [1] [] []

variable [Facts₀]

def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KFrameDefs.lean ====
/-
  The kernel's run, first half: what the region finds and what one grid step leaves. (Generic in the float instance: the same text serves the program read word by word and read over the extended reals.)

  @main first builds, on the host, the two zero-padded weight matrices (the transpose of W with its lower,
  respectively upper, 64 rows replaced by zeros), the bias as a 1×128 row, and each adjacency matrix regrouped as
  100 slabs of 100 rows; then one kernel region walks 50 grid steps. Step t reads slabs 2t and 2t+1 of each
  adjacency (four windows, two on each regrouped array), the whole x, both padded weights and the bias row, and
  writes rows 200t … 200t+199 of the result: the upper hundred rows from the even slabs, the lower hundred from
  the odd ones, by two stores that together cover the 200×128 block.

  Here: the arrays as the region finds them (`V`), each window's block at a step (`iblk`), the 200×128 block a
  step leaves as the two stores laid over one another (`blockOut`), and the proof data of the pipeline. Two
  windows read one array, so that array's ownership is dealt to them in two halves (`q`); the other inputs
  are held whole.
-/
import proofs.«144177_g50706383897209_cont_8to1c4_452_20_alg».proof.Proof.Gen.Kernel.Launch
import proofs.«144177_g50706383897209_cont_8to1c4_452_20_alg».proof.Proof.Gen.Kernel.Skeleton
import proofs.«144177_g50706383897209_cont_8to1c4_452_20_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the ten host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at step `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev rX : Rect S10000x128 := Rect.unit (s := S10000x128) ![0, 0] S10000x128.size inb_S10000x128_S10000x128_0_0
abbrev rA : Rect S1x100x10000 := Rect.unit (s := S1x100x10000) ![0, 0, 0] S1x100x10000.size inb_S1x100x10000_S1x100x10000_0_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rUp : Rect S200x128 := Rect.unit (s := S200x128) ![0, 0] S100x128.size inb_S200x128_S100x128_0_0
abbrev rLo : Rect S200x128 := Rect.unit (s := S200x128) ![100, 0] S100x128.size inb_S200x128_S100x128_100_0

/-! ## What a step leaves in the result's block -/

/-- The result window's 200×128 block after one step, from the eight input blocks: the lower hundred rows
    (stored last) from the odd slabs `x1`, `x3`, the upper hundred from the even slabs `x0`, `x2`. -/
def blockOut (x0 x1 x2 x3 : Vec F S1x100x10000 .f32) (x4 : Vec F S10000x128 .f32) (x5 x6 : Vec F S128x128 .f32)
    (x7 : Vec F S1x128 .f32) : Vec F S200x128 .f32 :=
  View.canon [⟨rLo, k0_pay1 (View.ld x4 rX) (k0_pay3 (View.ld x4 rX) (View.ld x1 rA) (View.ld x5 rW)) (k0_pay4 (View.ld x3 rA))
        (constant S100x128 .f32 0x00000000#32) (View.ld x6 rW) (View.ld x7 rB)⟩,
    ⟨rUp, k0_pay2 (View.ld x4 rX) (View.ld x0 rA) (View.ld x5 rW) (View.ld x2 rA) (View.ld x6 rW) (View.ld x7 rB)⟩]

/-- The two stores tile the block. -/
theorem cover_out (p0 p1 : Vec F S100x128 .f32) (y : S200x128.Idx) :
    ∃ pc ∈ ([⟨rLo, p0⟩, ⟨rUp, p1⟩] : List (View.Piece (Elt F) S200x128 .f32)), y ∈ pc.1.set :=
  View.cover_of_tiled [⟨rLo, p0⟩, ⟨rUp, p1⟩] S100x128.size (by rfl) y

/-! ## The pipeline's proof data -/

/-- The proof data on core `c`: the arrays as the region finds them; after a step each input's buffer still at its
    block and the result's at `blockOut` of the input blocks; nothing kept between steps beyond the buffers no
    window stages; nothing owed. The two windows on one regrouped adjacency hold complementary halves of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blockOut (iblk m c 0 t) (iblk m c 1 t) (iblk m c 2 t) (iblk m c 3 t) (iblk m c 4 t) (iblk m c 5 t) (iblk m c 6 t) (iblk m c 7 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = blockOut (iblk m c 0 t) (iblk m c 1 t) (iblk m c 2 t) (iblk m c 3 t) (iblk m c 4 t) (iblk m c 5 t) (iblk m c 6 t) (iblk m c 7 t) := by
  dsimp only [dats]

/-- Each input's current staging buffer holds its block at every step, fetched there or not: an input that is not
    fetched at a step has the same block index as at the step before, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

end Cert.Kernel.Fr

end
-- ==== Proof.KFrameBody.lean ====
/-
  The kernel's run, second half of the step: the body's triple and the body obligation.

  On whole staging buffers, the eight inputs' holding any read contents and the result's anything, the body runs
  to the end leaving the inputs as they were and the result's buffer at `blockOut` of the inputs: it loads x, the
  even slabs, both padded weights and the bias, stores the upper hundred rows; loads the odd slabs and the weights
  again, stores the lower hundred rows; the two stores cover the block, so nothing of what the buffer held before
  remains. At grid step t the inputs' buffers hold their blocks, so the step leaves the proof data's contents.
-/
import proofs.«144177_g50706383897209_cont_8to1c4_452_20_alg».proof.Proof.KFrameDefs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
theorem sound_kernel (c : Dev nD) (E : Set ℕ) (i : grid0.Coords) (arg1 : Memref sig .tc .vmem S1x100x10000 .f32) (harg1 : arg1.IsWhole) (arg2 : Memref sig .tc .vmem S1x100x10000 .f32) (harg2 : arg2.IsWhole) (arg3 : Memref sig .tc .vmem S1x100x10000 .f32) (harg3 : arg3.IsWhole) (arg4 : Memref sig .tc .vmem S1x100x10000 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S200x128 .f32) (harg9 : arg9.IsWhole)
    (x0 x1 x2 x3 : Vec F S1x100x10000 .f32) (x4 : Vec F S10000x128 .f32) (x5 x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (blockOut x0 x1 x2 x3 x4 x5 x6 x7)) -∗ K ⟨⟩))
      ⊢ wp frame (wpE (defs₀ (F := F)) Variants.none c none) E (cc0__fused_block i arg1 harg1 arg2 harg2 arg3 harg3 arg4 harg4 arg5 harg5 arg6 harg6 arg7 harg7 arg8 harg8 arg9 harg9) K := by
  simp only [cc0__fused_block_eq_skeleton]; unfold cc0__fused_block_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover_out _ _)

/-! ## The body obligation, at a generic step -/

/-- What the body is called with at step `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any step: the inputs' buffers hold their blocks, so `sound_kernel` applies; what the core keeps
    between steps and what it owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every step. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.KFrameRun.lean ====
/-
  The kernel's run, last part: the launch of the one region and the frame read off it.

  Nine windows stage seven buffers: the two windows that read the even and the odd slabs of a regrouped adjacency
  share that array. At entry each of the seven buffers is held whole at the full share, at what the host operations
  left in it. The pipeline wants, window by window, the window's array at the window's share: the full share of each
  regrouped adjacency is cut into its left and right halves, one for each of the two windows on it, and the five other
  buffers pass whole (`hsplit`). Nothing else enters the region: the unscoped buffers no window stages bypass it and
  are read back at the end as they were at entry; between steps the region keeps only the scoped buffers no window
  stages, at some contents.

  The run then ends with every window's array at what the proof data computes — an input's array as at entry, the
  result's array the entry contents overwritten block by block by what each step left — and every bypassing buffer as
  at entry (`run_main`). Read at the result and at the five arguments (`run_out`): x is window 4's array, an input; the
  four others are no window's array; and no host operation writes an argument. The frame claim is the argument part
  (`frame`).
-/
import proofs.«144177_g50706383897209_cont_8to1c4_452_20_alg».proof.Proof.KFrameBody

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays at entry

Window `w`'s share (an input's own, the output's full), its array's contents before any write-back (the entry
contents of the buffer behind it), and its summand of the pipeline's arrays: the buffer whole, at that share, at those
contents. -/

theorem share0_0 (c : Dev nD) : (dats m 0 c).share 0 = fullShare.left := rfl
theorem arrAt0_0 (c : Dev nD) : (dats m 0 c).arrAt 0 0 = V m c main_call0_v7 := rfl
theorem win0_0_eq (c : Dev nD) :
    ((cfg0.win 0).arr.view.loc (c.tc : Thread nD τ) ↦[(cfg0.win 0).arr.view.set]{(dats m 0 c).share 0} (dats m 0 c).arrAt 0 0 : sProp 𝕄)
      = (((c : Thread nD τ).loc main_call0_v7) ↦{fullShare.left} V m c main_call0_v7) := by
  rw [(arr_whole0 0).set_eq_univ, share0_0, arrAt0_0]

theorem share0_1 (c : Dev nD) : (dats m 0 c).share 1 = fullShare.right := rfl
theorem arrAt0_1 (c : Dev nD) : (dats m 0 c).arrAt 1 0 = V m c main_call0_v7 := rfl
theorem win0_1_eq (c : Dev nD) :
    ((cfg0.win 1).arr.view.loc (c.tc : Thread nD τ) ↦[(cfg0.win 1).arr.view.set]{(dats m 0 c).share 1} (dats m 0 c).arrAt 1 0 : sProp 𝕄)
      = (((c : Thread nD τ).loc main_call0_v7) ↦{fullShare.right} V m c main_call0_v7) := by
  rw [(arr_whole0 1).set_eq_univ, share0_1, arrAt0_1]

theorem share0_2 (c : Dev nD) : (dats m 0 c).share 2 = fullShare.left := rfl
theorem arrAt0_2 (c : Dev nD) : (dats m 0 c).arrAt 2 0 = V m c main_call0_v8 := rfl
theorem win0_2_eq (c : Dev nD) :
    ((cfg0.win 2).arr.view.loc (c.tc : Thread nD τ) ↦[(cfg0.win 2).arr.view.set]{(dats m 0 c).share 2} (dats m 0 c).arrAt 2 0 : sProp 𝕄)
      = (((c : Thread nD τ).loc main_call0_v8) ↦{fullShare.left} V m c main_call0_v8) := by
  rw [(arr_whole0 2).set_eq_univ, share0_2, arrAt0_2]

theorem share0_3 (c : Dev nD) : (dats m 0 c).share 3 = fullShare.right := rfl
theorem arrAt0_3 (c : Dev nD) : (dats m 0 c).arrAt 3 0 = V m c main_call0_v8 := rfl
theorem win0_3_eq (c : Dev nD) :
    ((cfg0.win 3).arr.view.loc (c.tc : Thread nD τ) ↦[(cfg0.win 3).arr.view.set]{(dats m 0 c).share 3} (dats m 0 c).arrAt 3 0 : sProp 𝕄)
      = (((c : Thread nD τ).loc main_call0_v8) ↦{fullShare.right} V m c main_call0_v8) := by
  rw [(arr_whole0 3).set_eq_univ, share0_3, arrAt0_3]

theorem share0_4 (c : Dev nD) : (dats m 0 c).share 4 = fullShare := rfl
theorem arrAt0_4 (c : Dev nD) : (dats m 0 c).arrAt 4 0 = V m c main_arg0 := rfl
theorem win0_4_eq (c : Dev nD) :
    ((cfg0.win 4).arr.view.loc (c.tc : Thread nD τ) ↦[(cfg0.win 4).arr.view.set]{(dats m 0 c).share 4} (dats m 0 c).arrAt 4 0 : sProp 𝕄)
      = (((c : Thread nD τ).loc main_arg0) ↦{fullShare} V m c main_arg0) := by
  rw [(arr_whole0 4).set_eq_univ, share0_4, arrAt0_4]

theorem share0_5 (c : Dev nD) : (dats m 0 c).share 5 = fullShare := rfl
theorem arrAt0_5 (c : Dev nD) : (dats m 0 c).arrAt 5 0 = V m c main_call0_v3 := rfl
theorem win0_5_eq (c : Dev nD) :
    ((cfg0.win 5).arr.view.loc (c.tc : Thread nD τ) ↦[(cfg0.win 5).arr.view.set]{(dats m 0 c).share 5} (dats m 0 c).arrAt 5 0 : sProp 𝕄)
      = (((c : Thread nD τ).loc main_call0_v3) ↦{fullShare} V m c main_call0_v3) := by
  rw [(arr_whole0 5).set_eq_univ, share0_5, arrAt0_5]

theorem share0_6 (c : Dev nD) : (dats m 0 c).share 6 = fullShare := rfl
theorem arrAt0_6 (c : Dev nD) : (dats m 0 c).arrAt 6 0 = V m c main_call0_v5 := rfl
theorem win0_6_eq (c : Dev nD) :
    ((cfg0.win 6).arr.view.loc (c.tc : Thread nD τ) ↦[(cfg0.win 6).arr.view.set]{(dats m 0 c).share 6} (dats m 0 c).arrAt 6 0 : sProp 𝕄)
      = (((c : Thread nD τ).loc main_call0_v5) ↦{fullShare} V m c main_call0_v5) := by
  rw [(arr_whole0 6).set_eq_univ, share0_6, arrAt0_6]

theorem share0_7 (c : Dev nD) : (dats m 0 c).share 7 = fullShare := rfl
theorem arrAt0_7 (c : Dev nD) : (dats m 0 c).arrAt 7 0 = V m c main_call0_v6 := rfl
theorem win0_7_eq (c : Dev nD) :
    ((cfg0.win 7).arr.view.loc (c.tc : Thread nD τ) ↦[(cfg0.win 7).arr.view.set]{(dats m 0 c).share 7} (dats m 0 c).arrAt 7 0 : sProp 𝕄)
      = (((c : Thread nD τ).loc main_call0_v6) ↦{fullShare} V m c main_call0_v6) := by
  rw [(arr_whole0 7).set_eq_univ, share0_7, arrAt0_7]

theorem share0_8 (c : Dev nD) : (dats m 0 c).share 8 = fullShare := rfl
theorem arrAt0_8 (c : Dev nD) : (dats m 0 c).arrAt 8 0 = V m c main_v0 := rfl
theorem win0_8_eq (c : Dev nD) :
    ((cfg0.win 8).arr.view.loc (c.tc : Thread nD τ) ↦[(cfg0.win 8).arr.view.set]{(dats m 0 c).share 8} (dats m 0 c).arrAt 8 0 : sProp 𝕄)
      = (((c : Thread nD τ).loc main_v0) ↦{fullShare} V m c main_v0) := by
  rw [(arr_whole0 8).set_eq_univ, share0_8, arrAt0_8]

/-! ## The arrays dealt to the windows -/

/-- The buffers behind the windows' arrays, listed: seven distinct buffers for nine windows. -/
theorem arrBufs0_eq (c : Dev nD) : (Pipeline.arrBufs (Ix := Unit) (Name := ℕ) (U := UR sig nD τ) (Lvl := ℕ) spec0 c (V m c) : sProp 𝕄)
    = iprop((((c : Thread nD τ).loc main_call0_v7) ↦{fullShare} V m c main_call0_v7)
        ∗ (((c : Thread nD τ).loc main_call0_v8) ↦{fullShare} V m c main_call0_v8)
        ∗ (((c : Thread nD τ).loc main_arg0) ↦{fullShare} V m c main_arg0)
        ∗ (((c : Thread nD τ).loc main_call0_v3) ↦{fullShare} V m c main_call0_v3)
        ∗ (((c : Thread nD τ).loc main_call0_v5) ↦{fullShare} V m c main_call0_v5)
        ∗ (((c : Thread nD τ).loc main_call0_v6) ↦{fullShare} V m c main_call0_v6)
        ∗ (((c : Thread nD τ).loc main_v0) ↦{fullShare} V m c main_v0)) := by
  unfold Pipeline.arrBufs
  exact bigSep_eq_bigSepL_of_eq [main_call0_v7, main_call0_v8, main_arg0, main_call0_v3, main_call0_v5, main_call0_v6, main_v0] (by decide) (by decide) _

/-- The pipeline's arrays at entry, window by window: each window's buffer whole, at the window's share, at the entry contents. -/
theorem arrays0_eq (c : Dev nD) : ((dats m 0 c).arrays ((dats m 0 c).arrAt · 0) : sProp 𝕄)
    = iprop((((c : Thread nD τ).loc main_call0_v7) ↦{fullShare.left} V m c main_call0_v7)
        ∗ (((c : Thread nD τ).loc main_call0_v7) ↦{fullShare.right} V m c main_call0_v7)
        ∗ (((c : Thread nD τ).loc main_call0_v8) ↦{fullShare.left} V m c main_call0_v8)
        ∗ (((c : Thread nD τ).loc main_call0_v8) ↦{fullShare.right} V m c main_call0_v8)
        ∗ (((c : Thread nD τ).loc main_arg0) ↦{fullShare} V m c main_arg0)
        ∗ (((c : Thread nD τ).loc main_call0_v3) ↦{fullShare} V m c main_call0_v3)
        ∗ (((c : Thread nD τ).loc main_call0_v5) ↦{fullShare} V m c main_call0_v5)
        ∗ (((c : Thread nD τ).loc main_call0_v6) ↦{fullShare} V m c main_call0_v6)
        ∗ (((c : Thread nD τ).loc main_v0) ↦{fullShare} V m c main_v0)) := by
  unfold Dat.arrays
  rw [bigSep_W0]
  exact (congrArg₂ BI.sep (win0_0_eq m c) (congrArg₂ BI.sep (win0_1_eq m c) (congrArg₂ BI.sep (win0_2_eq m c) (congrArg₂ BI.sep (win0_3_eq m c) (congrArg₂ BI.sep (win0_4_eq m c) (congrArg₂ BI.sep (win0_5_eq m c) (congrArg₂ BI.sep (win0_6_eq m c) (congrArg₂ BI.sep (win0_7_eq m c) (win0_8_eq m c)))))))))

/-- The distinct buffers behind the windows' arrays, each whole at the full share, are the pipeline's arrays at entry: each regrouped adjacency's full share is dealt in two halves to the two windows on it. -/
theorem hsplit (c : Dev nD) : (Pipeline.arrBufs (Ix := Unit) (Name := ℕ) (U := UR sig nD τ) (Lvl := ℕ) spec0 c (V m c) : sProp 𝕄) ⊢ (dats m 0 c).arrays ((dats m 0 c).arrAt · 0) := by
  rw [arrBufs0_eq, arrays0_eq]
  iintro ⟨H7, H8, Ha0, H3, H5, H6, Hv0⟩
  icases (pointsTo_share (PosShare.mem_left_op_right fullShare)).1 $$ H7 with ⟨H7l, H7r⟩
  icases (pointsTo_share (PosShare.mem_left_op_right fullShare)).1 $$ H8 with ⟨H8l, H8r⟩
  isplitl [H7l]; · iexact H7l
  isplitl [H7r]; · iexact H7r
  isplitl [H8l]; · iexact H8l
  isplitl [H8r]; · iexact H8r
  isplitl [Ha0]; · iexact Ha0
  isplitl [H3]; · iexact H3
  isplitl [H5]; · iexact H5
  isplitl [H6]; · iexact H6
  iexact Hv0

/-! ## The run -/

/-- The data's invariant is the same at every step: the scoped buffers no window stages, at some contents each. -/
theorem Φ_eq (c : Dev nD) (t : Fin (cfg0.N + 1)) : (dats m 0 c).Φ t
    = Pipeline.scopedRest (Ix := Unit) (Name := ℕ) (U := UR sig nD τ) (Lvl := ℕ) (Val := Elt F) spec0 c := by
  dsimp only [dats]

set_option backward.isDefEq.respectTransparency.types false in
/-- At the compiled mesh, for any values, from any memory with zero counters: every weakly fair execution of @main on
    the TensorCores terminates, and every final state has every window's array at what the proof data computes and
    every other unscoped buffer as the region found it. The region keeps nothing of the bypassing buffers and nothing
    between steps beyond the scoped buffers no window stages. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- Every final state has the result array at what the proof data computes and the five arguments unchanged: the
    result is the output window's array; x is an input window's array, never written; the other four arguments are no
    window's array, and no host operation writes an argument. -/
theorem run_out : θ_run defs (onTc (τ := τ) (main (F := F))) ⟨m, fun _ => 0, ρ⟩ (fun r => ∀ c : Dev nD,
      r.2.mem ((c.tc : Thread nD τ).loc main_v0) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 8,
      ((h c).1 4).trans (((dats m 0 c).arrAt_in 4 rfl _).trans ((A_eq m c 4).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

/-- The frame: every final state has the five arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_out m ρ)

end Cert.Kernel.Fr

end
-- ==== Proof.FrameDefs.lean ====
/-
  The kernel's run, first half: what the region finds and what one grid step leaves. (Generic in the float instance: the same text serves the program read word by word and read over the extended reals.)

  @main first builds, on the host, the two zero-padded weight matrices (the transpose of W with its lower,
  respectively upper, 64 rows replaced by zeros), the bias as a 1×128 row, and each adjacency matrix regrouped as
  100 slabs of 100 rows; then one kernel region walks 50 grid steps. Step t reads slabs 2t and 2t+1 of each
  adjacency (four windows, two on each regrouped array), the whole x, both padded weights and the bias row, and
  writes rows 200t … 200t+199 of the result: the upper hundred rows from the even slabs, the lower hundred from
  the odd ones, by two stores that together cover the 200×128 block.

  Here: the arrays as the region finds them (`V`), each window's block at a step (`iblk`), the 200×128 block a
  step leaves as the two stores laid over one another (`blockOut`), and the proof data of the pipeline. Two
  windows read one array, so that array's ownership is dealt to them in two halves (`q`); the other inputs
  are held whole.
-/
import proofs.«144177_g50706383897209_cont_8to1c4_452_20_alg».proof.Proof.Gen.KernelIdeal.Launch
import proofs.«144177_g50706383897209_cont_8to1c4_452_20_alg».proof.Proof.Gen.KernelIdeal.Skeleton
import proofs.«144177_g50706383897209_cont_8to1c4_452_20_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the ten host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at step `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev rX : Rect S10000x128 := Rect.unit (s := S10000x128) ![0, 0] S10000x128.size inb_S10000x128_S10000x128_0_0
abbrev rA : Rect S1x100x10000 := Rect.unit (s := S1x100x10000) ![0, 0, 0] S1x100x10000.size inb_S1x100x10000_S1x100x10000_0_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rUp : Rect S200x128 := Rect.unit (s := S200x128) ![0, 0] S100x128.size inb_S200x128_S100x128_0_0
abbrev rLo : Rect S200x128 := Rect.unit (s := S200x128) ![100, 0] S100x128.size inb_S200x128_S100x128_100_0

/-! ## What a step leaves in the result's block -/

/-- The result window's 200×128 block after one step, from the eight input blocks: the lower hundred rows
    (stored last) from the odd slabs `x1`, `x3`, the upper hundred from the even slabs `x0`, `x2`. -/
def blockOut (x0 x1 x2 x3 : Vec F S1x100x10000 .f32) (x4 : Vec F S10000x128 .f32) (x5 x6 : Vec F S128x128 .f32)
    (x7 : Vec F S1x128 .f32) : Vec F S200x128 .f32 :=
  View.canon [⟨rLo, k0_pay1 (View.ld x4 rX) (k0_pay3 (View.ld x4 rX) (View.ld x1 rA) (View.ld x5 rW)) (k0_pay4 (View.ld x3 rA))
        (constant S100x128 .f32 0x00000000#32) (View.ld x6 rW) (View.ld x7 rB)⟩,
    ⟨rUp, k0_pay2 (View.ld x4 rX) (View.ld x0 rA) (View.ld x5 rW) (View.ld x2 rA) (View.ld x6 rW) (View.ld x7 rB)⟩]

/-- The two stores tile the block. -/
theorem cover_out (p0 p1 : Vec F S100x128 .f32) (y : S200x128.Idx) :
    ∃ pc ∈ ([⟨rLo, p0⟩, ⟨rUp, p1⟩] : List (View.Piece (Elt F) S200x128 .f32)), y ∈ pc.1.set :=
  View.cover_of_tiled [⟨rLo, p0⟩, ⟨rUp, p1⟩] S100x128.size (by rfl) y

/-! ## The pipeline's proof data -/

/-- The proof data on core `c`: the arrays as the region finds them; after a step each input's buffer still at its
    block and the result's at `blockOut` of the input blocks; nothing kept between steps beyond the buffers no
    window stages; nothing owed. The two windows on one regrouped adjacency hold complementary halves of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blockOut (iblk m c 0 t) (iblk m c 1 t) (iblk m c 2 t) (iblk m c 3 t) (iblk m c 4 t) (iblk m c 5 t) (iblk m c 6 t) (iblk m c 7 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = blockOut (iblk m c 0 t) (iblk m c 1 t) (iblk m c 2 t) (iblk m c 3 t) (iblk m c 4 t) (iblk m c 5 t) (iblk m c 6 t) (iblk m c 7 t) := by
  dsimp only [dats]

/-- Each input's current staging buffer holds its block at every step, fetched there or not: an input that is not
    fetched at a step has the same block index as at the step before, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

end Cert.KernelIdeal.Fr

end
-- ==== Proof.FrameBody.lean ====
/-
  The kernel's run, second half of the step: the body's triple and the body obligation.

  On whole staging buffers, the eight inputs' holding any read contents and the result's anything, the body runs
  to the end leaving the inputs as they were and the result's buffer at `blockOut` of the inputs: it loads x, the
  even slabs, both padded weights and the bias, stores the upper hundred rows; loads the odd slabs and the weights
  again, stores the lower hundred rows; the two stores cover the block, so nothing of what the buffer held before
  remains. At grid step t the inputs' buffers hold their blocks, so the step leaves the proof data's contents.
-/
import proofs.«144177_g50706383897209_cont_8to1c4_452_20_alg».proof.Proof.FrameDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
theorem sound_kernel (c : Dev nD) (E : Set ℕ) (i : grid0.Coords) (arg1 : Memref sig .tc .vmem S1x100x10000 .f32) (harg1 : arg1.IsWhole) (arg2 : Memref sig .tc .vmem S1x100x10000 .f32) (harg2 : arg2.IsWhole) (arg3 : Memref sig .tc .vmem S1x100x10000 .f32) (harg3 : arg3.IsWhole) (arg4 : Memref sig .tc .vmem S1x100x10000 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S200x128 .f32) (harg9 : arg9.IsWhole)
    (x0 x1 x2 x3 : Vec F S1x100x10000 .f32) (x4 : Vec F S10000x128 .f32) (x5 x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (blockOut x0 x1 x2 x3 x4 x5 x6 x7)) -∗ K ⟨⟩))
      ⊢ wp frame (wpE (defs₀ (F := F)) Variants.none c none) E (cc0__fused_block i arg1 harg1 arg2 harg2 arg3 harg3 arg4 harg4 arg5 harg5 arg6 harg6 arg7 harg7 arg8 harg8 arg9 harg9) K := by
  simp only [cc0__fused_block_eq_skeleton]; unfold cc0__fused_block_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover_out _ _)

/-! ## The body obligation, at a generic step -/

/-- What the body is called with at step `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any step: the inputs' buffers hold their blocks, so `sound_kernel` applies; what the core keeps
    between steps and what it owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every step. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.FrameRun.lean ====
/-
  The kernel's run, last part: the launch of the one region and the frame read off it.

  Nine windows stage seven buffers: the two windows that read the even and the odd slabs of a regrouped adjacency
  share that array. At entry each of the seven buffers is held whole at the full share, at what the host operations
  left in it. The pipeline wants, window by window, the window's array at the window's share: the full share of each
  regrouped adjacency is cut into its left and right halves, one for each of the two windows on it, and the five other
  buffers pass whole (`hsplit`). Nothing else enters the region: the unscoped buffers no window stages bypass it and
  are read back at the end as they were at entry; between steps the region keeps only the scoped buffers no window
  stages, at some contents.

  The run then ends with every window's array at what the proof data computes — an input's array as at entry, the
  result's array the entry contents overwritten block by block by what each step left — and every bypassing buffer as
  at entry (`run_main`). Read at the result and at the five arguments (`run_out`): x is window 4's array, an input; the
  four others are no window's array; and no host operation writes an argument. The frame claim is the argument part
  (`frame`).
-/
import proofs.«144177_g50706383897209_cont_8to1c4_452_20_alg».proof.Proof.FrameBody

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays at entry

Window `w`'s share (an input's own, the output's full), its array's contents before any write-back (the entry
contents of the buffer behind it), and its summand of the pipeline's arrays: the buffer whole, at that share, at those
contents. -/

theorem share0_0 (c : Dev nD) : (dats m 0 c).share 0 = fullShare.left := rfl
theorem arrAt0_0 (c : Dev nD) : (dats m 0 c).arrAt 0 0 = V m c main_call0_v7 := rfl
theorem win0_0_eq (c : Dev nD) :
    ((cfg0.win 0).arr.view.loc (c.tc : Thread nD τ) ↦[(cfg0.win 0).arr.view.set]{(dats m 0 c).share 0} (dats m 0 c).arrAt 0 0 : sProp 𝕄)
      = (((c : Thread nD τ).loc main_call0_v7) ↦{fullShare.left} V m c main_call0_v7) := by
  rw [(arr_whole0 0).set_eq_univ, share0_0, arrAt0_0]

theorem share0_1 (c : Dev nD) : (dats m 0 c).share 1 = fullShare.right := rfl
theorem arrAt0_1 (c : Dev nD) : (dats m 0 c).arrAt 1 0 = V m c main_call0_v7 := rfl
theorem win0_1_eq (c : Dev nD) :
    ((cfg0.win 1).arr.view.loc (c.tc : Thread nD τ) ↦[(cfg0.win 1).arr.view.set]{(dats m 0 c).share 1} (dats m 0 c).arrAt 1 0 : sProp 𝕄)
      = (((c : Thread nD τ).loc main_call0_v7) ↦{fullShare.right} V m c main_call0_v7) := by
  rw [(arr_whole0 1).set_eq_univ, share0_1, arrAt0_1]

theorem share0_2 (c : Dev nD) : (dats m 0 c).share 2 = fullShare.left := rfl
theorem arrAt0_2 (c : Dev nD) : (dats m 0 c).arrAt 2 0 = V m c main_call0_v8 := rfl
theorem win0_2_eq (c : Dev nD) :
    ((cfg0.win 2).arr.view.loc (c.tc : Thread nD τ) ↦[(cfg0.win 2).arr.view.set]{(dats m 0 c).share 2} (dats m 0 c).arrAt 2 0 : sProp 𝕄)
      = (((c : Thread nD τ).loc main_call0_v8) ↦{fullShare.left} V m c main_call0_v8) := by
  rw [(arr_whole0 2).set_eq_univ, share0_2, arrAt0_2]

theorem share0_3 (c : Dev nD) : (dats m 0 c).share 3 = fullShare.right := rfl
theorem arrAt0_3 (c : Dev nD) : (dats m 0 c).arrAt 3 0 = V m c main_call0_v8 := rfl
theorem win0_3_eq (c : Dev nD) :
    ((cfg0.win 3).arr.view.loc (c.tc : Thread nD τ) ↦[(cfg0.win 3).arr.view.set]{(dats m 0 c).share 3} (dats m 0 c).arrAt 3 0 : sProp 𝕄)
      = (((c : Thread nD τ).loc main_call0_v8) ↦{fullShare.right} V m c main_call0_v8) := by
  rw [(arr_whole0 3).set_eq_univ, share0_3, arrAt0_3]

theorem share0_4 (c : Dev nD) : (dats m 0 c).share 4 = fullShare := rfl
theorem arrAt0_4 (c : Dev nD) : (dats m 0 c).arrAt 4 0 = V m c main_arg0 := rfl
theorem win0_4_eq (c : Dev nD) :
    ((cfg0.win 4).arr.view.loc (c.tc : Thread nD τ) ↦[(cfg0.win 4).arr.view.set]{(dats m 0 c).share 4} (dats m 0 c).arrAt 4 0 : sProp 𝕄)
      = (((c : Thread nD τ).loc main_arg0) ↦{fullShare} V m c main_arg0) := by
  rw [(arr_whole0 4).set_eq_univ, share0_4, arrAt0_4]

theorem share0_5 (c : Dev nD) : (dats m 0 c).share 5 = fullShare := rfl
theorem arrAt0_5 (c : Dev nD) : (dats m 0 c).arrAt 5 0 = V m c main_call0_v3 := rfl
theorem win0_5_eq (c : Dev nD) :
    ((cfg0.win 5).arr.view.loc (c.tc : Thread nD τ) ↦[(cfg0.win 5).arr.view.set]{(dats m 0 c).share 5} (dats m 0 c).arrAt 5 0 : sProp 𝕄)
      = (((c : Thread nD τ).loc main_call0_v3) ↦{fullShare} V m c main_call0_v3) := by
  rw [(arr_whole0 5).set_eq_univ, share0_5, arrAt0_5]

theorem share0_6 (c : Dev nD) : (dats m 0 c).share 6 = fullShare := rfl
theorem arrAt0_6 (c : Dev nD) : (dats m 0 c).arrAt 6 0 = V m c main_call0_v5 := rfl
theorem win0_6_eq (c : Dev nD) :
    ((cfg0.win 6).arr.view.loc (c.tc : Thread nD τ) ↦[(cfg0.win 6).arr.view.set]{(dats m 0 c).share 6} (dats m 0 c).arrAt 6 0 : sProp 𝕄)
      = (((c : Thread nD τ).loc main_call0_v5) ↦{fullShare} V m c main_call0_v5) := by
  rw [(arr_whole0 6).set_eq_univ, share0_6, arrAt0_6]

theorem share0_7 (c : Dev nD) : (dats m 0 c).share 7 = fullShare := rfl
theorem arrAt0_7 (c : Dev nD) : (dats m 0 c).arrAt 7 0 = V m c main_call0_v6 := rfl
theorem win0_7_eq (c : Dev nD) :
    ((cfg0.win 7).arr.view.loc (c.tc : Thread nD τ) ↦[(cfg0.win 7).arr.view.set]{(dats m 0 c).share 7} (dats m 0 c).arrAt 7 0 : sProp 𝕄)
      = (((c : Thread nD τ).loc main_call0_v6) ↦{fullShare} V m c main_call0_v6) := by
  rw [(arr_whole0 7).set_eq_univ, share0_7, arrAt0_7]

theorem share0_8 (c : Dev nD) : (dats m 0 c).share 8 = fullShare := rfl
theorem arrAt0_8 (c : Dev nD) : (dats m 0 c).arrAt 8 0 = V m c main_v0 := rfl
theorem win0_8_eq (c : Dev nD) :
    ((cfg0.win 8).arr.view.loc (c.tc : Thread nD τ) ↦[(cfg0.win 8).arr.view.set]{(dats m 0 c).share 8} (dats m 0 c).arrAt 8 0 : sProp 𝕄)
      = (((c : Thread nD τ).loc main_v0) ↦{fullShare} V m c main_v0) := by
  rw [(arr_whole0 8).set_eq_univ, share0_8, arrAt0_8]

/-! ## The arrays dealt to the windows -/

/-- The buffers behind the windows' arrays, listed: seven distinct buffers for nine windows. -/
theorem arrBufs0_eq (c : Dev nD) : (Pipeline.arrBufs (Ix := Unit) (Name := ℕ) (U := UR sig nD τ) (Lvl := ℕ) spec0 c (V m c) : sProp 𝕄)
    = iprop((((c : Thread nD τ).loc main_call0_v7) ↦{fullShare} V m c main_call0_v7)
        ∗ (((c : Thread nD τ).loc main_call0_v8) ↦{fullShare} V m c main_call0_v8)
        ∗ (((c : Thread nD τ).loc main_arg0) ↦{fullShare} V m c main_arg0)
        ∗ (((c : Thread nD τ).loc main_call0_v3) ↦{fullShare} V m c main_call0_v3)
        ∗ (((c : Thread nD τ).loc main_call0_v5) ↦{fullShare} V m c main_call0_v5)
        ∗ (((c : Thread nD τ).loc main_call0_v6) ↦{fullShare} V m c main_call0_v6)
        ∗ (((c : Thread nD τ).loc main_v0) ↦{fullShare} V m c main_v0)) := by
  unfold Pipeline.arrBufs
  exact bigSep_eq_bigSepL_of_eq [main_call0_v7, main_call0_v8, main_arg0, main_call0_v3, main_call0_v5, main_call0_v6, main_v0] (by decide) (by decide) _

/-- The pipeline's arrays at entry, window by window: each window's buffer whole, at the window's share, at the entry contents. -/
theorem arrays0_eq (c : Dev nD) : ((dats m 0 c).arrays ((dats m 0 c).arrAt · 0) : sProp 𝕄)
    = iprop((((c : Thread nD τ).loc main_call0_v7) ↦{fullShare.left} V m c main_call0_v7)
        ∗ (((c : Thread nD τ).loc main_call0_v7) ↦{fullShare.right} V m c main_call0_v7)
        ∗ (((c : Thread nD τ).loc main_call0_v8) ↦{fullShare.left} V m c main_call0_v8)
        ∗ (((c : Thread nD τ).loc main_call0_v8) ↦{fullShare.right} V m c main_call0_v8)
        ∗ (((c : Thread nD τ).loc main_arg0) ↦{fullShare} V m c main_arg0)
        ∗ (((c : Thread nD τ).loc main_call0_v3) ↦{fullShare} V m c main_call0_v3)
        ∗ (((c : Thread nD τ).loc main_call0_v5) ↦{fullShare} V m c main_call0_v5)
        ∗ (((c : Thread nD τ).loc main_call0_v6) ↦{fullShare} V m c main_call0_v6)
        ∗ (((c : Thread nD τ).loc main_v0) ↦{fullShare} V m c main_v0)) := by
  unfold Dat.arrays
  rw [bigSep_W0]
  exact (congrArg₂ BI.sep (win0_0_eq m c) (congrArg₂ BI.sep (win0_1_eq m c) (congrArg₂ BI.sep (win0_2_eq m c) (congrArg₂ BI.sep (win0_3_eq m c) (congrArg₂ BI.sep (win0_4_eq m c) (congrArg₂ BI.sep (win0_5_eq m c) (congrArg₂ BI.sep (win0_6_eq m c) (congrArg₂ BI.sep (win0_7_eq m c) (win0_8_eq m c)))))))))

/-- The distinct buffers behind the windows' arrays, each whole at the full share, are the pipeline's arrays at entry: each regrouped adjacency's full share is dealt in two halves to the two windows on it. -/
theorem hsplit (c : Dev nD) : (Pipeline.arrBufs (Ix := Unit) (Name := ℕ) (U := UR sig nD τ) (Lvl := ℕ) spec0 c (V m c) : sProp 𝕄) ⊢ (dats m 0 c).arrays ((dats m 0 c).arrAt · 0) := by
  rw [arrBufs0_eq, arrays0_eq]
  iintro ⟨H7, H8, Ha0, H3, H5, H6, Hv0⟩
  icases (pointsTo_share (PosShare.mem_left_op_right fullShare)).1 $$ H7 with ⟨H7l, H7r⟩
  icases (pointsTo_share (PosShare.mem_left_op_right fullShare)).1 $$ H8 with ⟨H8l, H8r⟩
  isplitl [H7l]; · iexact H7l
  isplitl [H7r]; · iexact H7r
  isplitl [H8l]; · iexact H8l
  isplitl [H8r]; · iexact H8r
  isplitl [Ha0]; · iexact Ha0
  isplitl [H3]; · iexact H3
  isplitl [H5]; · iexact H5
  isplitl [H6]; · iexact H6
  iexact Hv0

/-! ## The run -/

/-- The data's invariant is the same at every step: the scoped buffers no window stages, at some contents each. -/
theorem Φ_eq (c : Dev nD) (t : Fin (cfg0.N + 1)) : (dats m 0 c).Φ t
    = Pipeline.scopedRest (Ix := Unit) (Name := ℕ) (U := UR sig nD τ) (Lvl := ℕ) (Val := Elt F) spec0 c := by
  dsimp only [dats]

set_option backward.isDefEq.respectTransparency.types false in
/-- At the compiled mesh, for any values, from any memory with zero counters: every weakly fair execution of @main on
    the TensorCores terminates, and every final state has every window's array at what the proof data computes and
    every other unscoped buffer as the region found it. The region keeps nothing of the bypassing buffers and nothing
    between steps beyond the scoped buffers no window stages. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- Every final state has the result array at what the proof data computes and the five arguments unchanged: the
    result is the output window's array; x is an input window's array, never written; the other four arguments are no
    window's array, and no host operation writes an argument. -/
theorem run_out : θ_run defs (onTc (τ := τ) (main (F := F))) ⟨m, fun _ => 0, ρ⟩ (fun r => ∀ c : Dev nD,
      r.2.mem ((c.tc : Thread nD τ).loc main_v0) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 8,
      ((h c).1 4).trans (((dats m 0 c).arrAt_in 4 rfl _).trans ((A_eq m c 4).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

/-- The frame: every final state has the five arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_out m ρ)

end Cert.KernelIdeal.Fr

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.BlockValue.lean ====
/-
  One grid step's 200×128 block, entry by entry, at the ideal instance.

  Row p of the upper hundred rows is the even slabs' row p; row 100 + p of the lower hundred is the odd slabs' row p.
  Either way entry (·, q) is: the first adjacency's row against x, then against the first padded weight's column q;
  plus the same for the second adjacency and the second padded weight; plus the bias row's entry q.
-/
import proofs.«144177_g50706383897209_cont_8to1c4_452_20_alg».proof.Proof.FrameDefs
import proofs.«144177_g50706383897209_cont_8to1c4_452_20_alg».proof.Proof.LibMatmul
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.BlockValue

open Cert.KernelIdeal Cert.KernelIdeal.Gen Cert.KernelIdeal.Fr
open Idealize.ShloMosaic Idealize.ShloMosaic.ValueIdx

/-- One half of the block at (p, q): slab row p of each adjacency against x and its padded weight, plus the bias. -/
def half (xa xb : Vec Ideal S1x100x10000 .f32) (x4 : Vec Ideal S10000x128 .f32) (x5 x6 : Vec Ideal S128x128 .f32)
    (x7 : Vec Ideal S1x128 .f32) (p : Fin 100) (q : Fin 128) : EReal :=
  ((∑ k : Fin 128, (∑ n : Fin 10000, xa (ix3 (0 : Fin 1) p n) * x4 (ix2 n k)) * x5 (ix2 k q))
    + (∑ k : Fin 128, (∑ n : Fin 10000, xb (ix3 (0 : Fin 1) p n) * x4 (ix2 n k)) * x6 (ix2 k q)))
  + x7 (ix2 (0 : Fin 1) q)

/-! ## The two products' dimension numbers are the plain ones -/

theorem D1_eq : dot_S100x10000_S10000x128_S100x128_1_0_0_1_n_n = DotDims.plain 100 10000 128 := rfl
theorem D2_eq : dot_S100x128_S128x128_S100x128_1_0_0_1_n_n = DotDims.plain 100 128 128 := rfl

/-! ## The payloads at an entry -/

/-- A slab's row p against x, then against a padded weight's column q: the slab is read with its unit axis dropped, the
    weight as it is, and each product starts from zero. -/
theorem twice_apply (xa : FVec Ideal S1x100x10000 .f32) (x : FVec Ideal S10000x128 .f32) (w : FVec Ideal S128x128 .f32)
    (h1 : S1x100x10000.ShapeCasts S100x10000) (h2 : S128x128.ShapeCasts S128x128) (p : Fin 100) (q : Fin 128) :
    matmul dot_S100x128_S128x128_S100x128_1_0_0_1_n_n none
      (matmul dot_S100x10000_S10000x128_S100x128_1_0_0_1_n_n none (shapeCast S100x10000 xa h1) x
        (constant (F := Ideal) S100x128 .f32 0x00000000#32))
      (shapeCast S128x128 w h2) (constant (F := Ideal) S100x128 .f32 0x00000000#32) (ix2 p q)
    = ∑ k : Fin 128, (∑ n : Fin 10000, xa (ix3 (0 : Fin 1) p n) * x (ix2 n k)) * w (ix2 k q) := by
  rw [D2_eq, D1_eq]
  refine (Cert.Matmul.matmul_plain_apply none _ _ p q).trans ?_
  refine Finset.sum_congr rfl fun k _ => ?_
  rw [shapeCast_self]
  congr 1
  refine (Cert.Matmul.matmul_plain_apply none _ _ p k).trans ?_
  refine Finset.sum_congr rfl fun n _ => ?_
  rw [shapeCast_1ab_ab_apply]

/-- The upper store's payload at (p, q). -/
theorem pay2_apply (v0 : FVec Ideal S10000x128 .f32) (v1 : FVec Ideal S1x100x10000 .f32) (v4 : FVec Ideal S128x128 .f32)
    (v7 : FVec Ideal S1x100x10000 .f32) (v10 : FVec Ideal S128x128 .f32) (v14 : FVec Ideal S1x128 .f32) (p : Fin 100) (q : Fin 128) :
    k0_pay2 (F := Ideal) v0 v1 v4 v7 v10 v14 (ix2 p q) = half v1 v7 v0 v4 v10 v14 p q := by
  unfold Gen.k0_pay2 half
  refine (addf_apply _ _ _).trans ?_
  refine congrArg₂ (· + ·) ((addf_apply _ _ _).trans (congrArg₂ (· + ·) ?_ ?_)) ?_
  · exact twice_apply v1 v0 v4 _ _ p q
  · exact twice_apply v7 v0 v10 _ _ p q
  · rw [shapeCast_self]
    exact broadcastTo_1b_ab_apply v14 _ p q

/-- The lower store's payload at (p, q), with its first product and its second adjacency block as the body hands them on. -/
theorem pay1_apply (v0 : FVec Ideal S10000x128 .f32) (v19 : FVec Ideal S1x100x10000 .f32) (v22 : FVec Ideal S128x128 .f32)
    (v25 : FVec Ideal S1x100x10000 .f32) (v28 : FVec Ideal S128x128 .f32) (v32 : FVec Ideal S1x128 .f32) (p : Fin 100) (q : Fin 128) :
    k0_pay1 (F := Ideal) v0 (k0_pay3 v0 v19 v22) (k0_pay4 v25) (constant (F := Ideal) S100x128 .f32 0x00000000#32) v28 v32 (ix2 p q)
      = half v19 v25 v0 v22 v28 v32 p q := by
  unfold Gen.k0_pay1 Gen.k0_pay3 Gen.k0_pay4 half
  refine (addf_apply _ _ _).trans ?_
  refine congrArg₂ (· + ·) ((addf_apply _ _ _).trans (congrArg₂ (· + ·) ?_ ?_)) ?_
  · exact twice_apply v19 v0 v22 _ _ p q
  · exact twice_apply v25 v0 v28 _ _ p q
  · rw [shapeCast_self]
    exact broadcastTo_1b_ab_apply v32 _ p q

/-! ## The two stores read at an entry -/

theorem zeros2 : (![0, 0] : Fin 2 → Nat) = fun _ => 0 := by funext a; fin_cases a <;> rfl
theorem zeros3 : (![0, 0, 0] : Fin 3 → Nat) = fun _ => 0 := by funext a; fin_cases a <;> rfl

/-- Row p of the upper rectangle is row p of the block. -/
theorem rUp_emb (p : Fin 100) (q : Fin 128) :
    rUp.emb (ix2 p q) = ix2 (⟨p.val, by have := p.isLt; omega⟩ : Fin 200) q := by
  funext a
  refine Fin.ext ?_
  match a with
  | ⟨0, _⟩ => show 0 + 1 * p.val = p.val; omega
  | ⟨1, _⟩ => show 0 + 1 * q.val = q.val; omega

/-- Row p of the lower rectangle is row 100 + p of the block. -/
theorem rLo_emb (p : Fin 100) (q : Fin 128) :
    rLo.emb (ix2 p q) = ix2 (⟨100 + p.val, by have := p.isLt; omega⟩ : Fin 200) q := by
  funext a
  refine Fin.ext ?_
  match a with
  | ⟨0, _⟩ => show 100 + 1 * p.val = 100 + p.val; omega
  | ⟨1, _⟩ => show 0 + 1 * q.val = q.val; omega

/-- A row below the hundredth is not in the lower rectangle. -/
theorem not_mem_rLo (p : Fin 100) (q : Fin 128) :
    ix2 (⟨p.val, by have := p.isLt; omega⟩ : Fin 200) q ∉ rLo.set := by
  rw [Rect.mem_set_unit]
  intro h
  have h0 := (h 0).1
  have : 100 ≤ p.val := h0
  have := p.isLt
  omega

/-- Of two stores, the lower rectangle's laid last, a row below the hundredth reads the upper store's payload. -/
theorem canon_upper (w0 w1 : Vec Ideal S100x128 .f32) (p : Fin 100) (q : Fin 128) :
    View.canon ([⟨rLo, w0⟩, ⟨rUp, w1⟩] : List (View.Piece (Elt Ideal) S200x128 .f32))
      (ix2 (⟨p.val, by have := p.isLt; omega⟩ : Fin 200) q) = w1 (ix2 p q) :=
  (View.canon_cons_of_not_mem (⟨rLo, w0⟩ : View.Piece (Elt Ideal) S200x128 .f32) [⟨rUp, w1⟩] (not_mem_rLo p q)).trans
    ((congrArg (View.canon ([⟨rUp, w1⟩] : List (View.Piece (Elt Ideal) S200x128 .f32))) (rUp_emb p q).symm).trans
      (View.canon_cons_emb rUp w1 [] (ix2 p q)))

/-- A row from the hundredth on reads the lower store's payload. -/
theorem canon_lower (w0 w1 : Vec Ideal S100x128 .f32) (p : Fin 100) (q : Fin 128) :
    View.canon ([⟨rLo, w0⟩, ⟨rUp, w1⟩] : List (View.Piece (Elt Ideal) S200x128 .f32))
      (ix2 (⟨100 + p.val, by have := p.isLt; omega⟩ : Fin 200) q) = w0 (ix2 p q) :=
  (congrArg (View.canon ([⟨rLo, w0⟩, ⟨rUp, w1⟩] : List (View.Piece (Elt Ideal) S200x128 .f32))) (rLo_emb p q).symm).trans
    (View.canon_cons_emb rLo w0 [⟨rUp, w1⟩] (ix2 p q))

/-! ## The block's two halves -/

/-- The upper hundred rows come from the even slabs. -/
theorem blockOut_upper (x0 x1 x2 x3 : Vec Ideal S1x100x10000 .f32) (x4 : Vec Ideal S10000x128 .f32) (x5 x6 : Vec Ideal S128x128 .f32)
    (x7 : Vec Ideal S1x128 .f32) (p : Fin 100) (q : Fin 128) :
    blockOut x0 x1 x2 x3 x4 x5 x6 x7 (ix2 (⟨p.val, by have := p.isLt; omega⟩ : Fin 200) q) = half x0 x2 x4 x5 x6 x7 p q := by
  unfold blockOut
  refine (canon_upper _ _ p q).trans ?_
  rw [View.ld_unit_zero (S := S10000x128) zeros2, View.ld_unit_zero (S := S1x100x10000) zeros3,
    View.ld_unit_zero (S := S1x100x10000) zeros3, View.ld_unit_zero (S := S128x128) zeros2,
    View.ld_unit_zero (S := S128x128) zeros2, View.ld_unit_zero (S := S1x128) zeros2]
  exact pay2_apply x4 x0 x5 x2 x6 x7 p q

/-- The lower hundred rows come from the odd slabs. -/
theorem blockOut_lower (x0 x1 x2 x3 : Vec Ideal S1x100x10000 .f32) (x4 : Vec Ideal S10000x128 .f32) (x5 x6 : Vec Ideal S128x128 .f32)
    (x7 : Vec Ideal S1x128 .f32) (p : Fin 100) (q : Fin 128) :
    blockOut x0 x1 x2 x3 x4 x5 x6 x7 (ix2 (⟨100 + p.val, by have := p.isLt; omega⟩ : Fin 200) q) = half x1 x3 x4 x5 x6 x7 p q := by
  unfold blockOut
  refine (canon_lower _ _ p q).trans ?_
  rw [View.ld_unit_zero (S := S10000x128) zeros2, View.ld_unit_zero (S := S1x100x10000) zeros3,
    View.ld_unit_zero (S := S1x100x10000) zeros3, View.ld_unit_zero (S := S128x128) zeros2,
    View.ld_unit_zero (S := S128x128) zeros2, View.ld_unit_zero (S := S1x128) zeros2]
  exact pay1_apply x4 x1 x5 x3 x6 x7 p q

end Cert.KernelIdeal.BlockValue

end
-- ==== Proof.EntryValue.lean ====
/-
  The arrays the host builds before the region, read at an index, at the ideal instance.

  The first padded weight is W transposed on its upper 64 rows and zero below; the second is zero on its upper 64 rows
  and W transposed below; the bias row is b; each regrouped adjacency's entry (s, p, n) is the matrix's entry
  (100 s + p, n).
-/
import proofs.«144177_g50706383897209_cont_8to1c4_452_20_alg».proof.Proof.FrameDefs
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.EntryValue

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ)

/-- The five argument arrays on core `c`, at their literal types. -/
abbrev aX (c : Dev nD) : FVec Ideal S10000x128 .f32 := m ((c : Thread nD τ).loc main_arg0)
abbrev aA1 (c : Dev nD) : FVec Ideal S10000x10000 .f32 := m ((c : Thread nD τ).loc main_arg1)
abbrev aA2 (c : Dev nD) : FVec Ideal S10000x10000 .f32 := m ((c : Thread nD τ).loc main_arg2)
abbrev aW (c : Dev nD) : FVec Ideal S128x128 .f32 := m ((c : Thread nD τ).loc main_arg3)
abbrev aB (c : Dev nD) : FVec Ideal S128 .f32 := m ((c : Thread nD τ).loc main_arg4)

/-- The arrays the host builds, as the region finds them, at their literal types. -/
abbrev w1p (c : Dev nD) : FVec Ideal S128x128 .f32 := V m c main_call0_v3
abbrev w2p (c : Dev nD) : FVec Ideal S128x128 .f32 := V m c main_call0_v5
abbrev brow (c : Dev nD) : FVec Ideal S1x128 .f32 := V m c main_call0_v6
abbrev adj1r (c : Dev nD) : FVec Ideal S100x100x10000 .f32 := V m c main_call0_v7
abbrev adj2r (c : Dev nD) : FVec Ideal S100x100x10000 .f32 := V m c main_call0_v8

/-! ## The operations' terms read at an index, over any contents -/

/-- The transpose of W with its upper 64 rows kept and zeros below, read at (k, q). -/
theorem padLo_apply (W : FVec Ideal S128x128 .f32) (k q : Fin 128) :
    concatenate S128x128 0
      [⟨S64x128, extractStridedSlice S64x128 ![0, 0] (transpose S128x128 [1, 0] W transposes_S128x128_S128x128_1_0) slices_S128x128_S64x128_0_0⟩,
       ⟨S64x128, broadcastInDim S64x128 ![] bcast_S_S64x128 (constant (F := Ideal) S_ .f32 0x00000000#32)⟩]
      concatenates_S64x128_S64x128_S128x128_d0 (ix2 k q)
      = if k.val < 64 then W (ix2 q k) else 0 := by
  by_cases hk : k.val < 64
  · -- the row falls in the first piece: the slice at offset (0, 0) of the transpose
    rw [if_pos hk]
    refine (concatenate_pair_apply_left (0 : Fin S128x128.rank) _ _ concatenates_S64x128_S64x128_S128x128_d0 (ix2 k q) rfl
      (ix2 (⟨k.val, hk⟩ : Fin 64) q) (fun b => match b with | ⟨0, _⟩ => rfl | ⟨1, _⟩ => rfl)).trans ?_
    refine (extractStridedSlice_apply ![0, 0] _ slices_S128x128_S64x128_0_0 (ix2 (⟨k.val, hk⟩ : Fin 64) q) (ix2 k q) (fun a => match a with
      | ⟨0, _⟩ => by show k.val = 0 + k.val; omega
      | ⟨1, _⟩ => by show q.val = 0 + q.val; omega)).trans ?_
    exact transpose_apply [1, 0] W transposes_S128x128_S128x128_1_0 (ix2 k q) (ix2 q k) (fun b => match b with
      | ⟨0, _⟩ => rfl
      | ⟨1, _⟩ => rfl)
  · -- the row falls in the second piece: the broadcast zero
    rw [if_neg hk]
    refine (concatenate_pair_apply_right (0 : Fin S128x128.rank) _ _ concatenates_S64x128_S64x128_S128x128_d0 (ix2 k q) rfl rfl
      (ix2 (⟨k.val - 64, by have := k.isLt; omega⟩ : Fin 64) q)
      (fun b => match b with | ⟨0, _⟩ => fun h => absurd rfl h | ⟨1, _⟩ => fun _ => rfl)
      (by show k.val - 64 + 64 = k.val; omega)).trans ?_
    refine (broadcastInDim_apply ![] bcast_S_S64x128 _ _ ix0 (fun a => a.elim0)).trans ?_
    exact Ideal.ofBits_zero_f32

/-- Zeros on the upper 64 rows and the transpose of W below, read at (k, q). -/
theorem padHi_apply (W : FVec Ideal S128x128 .f32) (k q : Fin 128) :
    concatenate S128x128 0
      [⟨S64x128, broadcastInDim S64x128 ![] bcast_S_S64x128 (constant (F := Ideal) S_ .f32 0x00000000#32)⟩,
       ⟨S64x128, extractStridedSlice S64x128 ![64, 0] (transpose S128x128 [1, 0] W transposes_S128x128_S128x128_1_0) slices_S128x128_S64x128_64_0⟩]
      concatenates_S64x128_S64x128_S128x128_d0 (ix2 k q)
      = if k.val < 64 then 0 else W (ix2 q k) := by
  by_cases hk : k.val < 64
  · -- the row falls in the first piece: the broadcast zero
    rw [if_pos hk]
    refine (concatenate_pair_apply_left (0 : Fin S128x128.rank) _ _ concatenates_S64x128_S64x128_S128x128_d0 (ix2 k q) rfl
      (ix2 (⟨k.val, hk⟩ : Fin 64) q) (fun b => match b with | ⟨0, _⟩ => rfl | ⟨1, _⟩ => rfl)).trans ?_
    refine (broadcastInDim_apply ![] bcast_S_S64x128 _ _ ix0 (fun a => a.elim0)).trans ?_
    exact Ideal.ofBits_zero_f32
  · -- the row falls in the second piece: the slice at offset (64, 0) of the transpose, at row k - 64
    rw [if_neg hk]
    have hk' : k.val - 64 < 64 := by have := k.isLt; omega
    refine (concatenate_pair_apply_right (0 : Fin S128x128.rank) _ _ concatenates_S64x128_S64x128_S128x128_d0 (ix2 k q) rfl rfl
      (ix2 (⟨k.val - 64, hk'⟩ : Fin 64) q)
      (fun b => match b with | ⟨0, _⟩ => fun h => absurd rfl h | ⟨1, _⟩ => fun _ => rfl)
      (by show k.val - 64 + 64 = k.val; omega)).trans ?_
    refine (extractStridedSlice_apply ![64, 0] _ slices_S128x128_S64x128_64_0 (ix2 (⟨k.val - 64, hk'⟩ : Fin 64) q) (ix2 k q) (fun a => match a with
      | ⟨0, _⟩ => by show k.val = 64 + (k.val - 64); omega
      | ⟨1, _⟩ => by show q.val = 0 + q.val; omega)).trans ?_
    exact transpose_apply [1, 0] W transposes_S128x128_S128x128_1_0 (ix2 k q) (ix2 q k) (fun b => match b with
      | ⟨0, _⟩ => rfl
      | ⟨1, _⟩ => rfl)

/-- A vector of 128 regrouped as one row: entry (0, q) is entry q (both at row-major position q). -/
theorem row_apply (B : FVec Ideal S128 .f32) (q : Fin 128) :
    shapeCast S1x128 B shapeCasts_S128_S1x128 (ix2 (0 : Fin 1) q) = B (ix1 q) := by
  refine shapeCast_apply B shapeCasts_S128_S1x128 (ix2 (0 : Fin 1) q) (ix1 q) ?_
  rw [Shape.rowMajor_val_one, Shape.rowMajor_val_two]
  show q.val = 0 * 128 + q.val
  omega

/-- A 10000 × 10000 matrix regrouped as 100 slabs of 100 rows: entry (s, p, n) is entry (100 s + p, n)
    (both at row-major position 1000000 s + 10000 p + n). -/
theorem slab_apply (A : FVec Ideal S10000x10000 .f32) (s p : Fin 100) (n : Fin 10000) :
    shapeCast S100x100x10000 A shapeCasts_S10000x10000_S100x100x10000 (ix3 s p n)
      = A (ix2 (⟨100 * s.val + p.val, by have := s.isLt; have := p.isLt; omega⟩ : Fin 10000) n) := by
  refine shapeCast_apply A shapeCasts_S10000x10000_S100x100x10000 (ix3 s p n) _ ?_
  rw [Shape.rowMajor_val_two, Shape.rowMajor_val_three]
  show (100 * s.val + p.val) * 10000 + n.val = (s.val * 100 + p.val) * 10000 + n.val
  omega

/-! ## Each built array as the host operations' term of the arguments -/

theorem w1p_eq (c : Dev nD) :
    (w1p m c : S128x128.Idx → EReal) = concatenate S128x128 0
      [⟨S64x128, extractStridedSlice S64x128 ![0, 0] (transpose S128x128 [1, 0] (aW m c) transposes_S128x128_S128x128_1_0) slices_S128x128_S64x128_0_0⟩,
       ⟨S64x128, broadcastInDim S64x128 ![] bcast_S_S64x128 (constant (F := Ideal) S_ .f32 0x00000000#32)⟩]
      concatenates_S64x128_S64x128_S128x128_d0 := by
  dsimp only [w1p, V, hostOps0]; after_results; rfl

theorem w2p_eq (c : Dev nD) :
    (w2p m c : S128x128.Idx → EReal) = concatenate S128x128 0
      [⟨S64x128, broadcastInDim S64x128 ![] bcast_S_S64x128 (constant (F := Ideal) S_ .f32 0x00000000#32)⟩,
       ⟨S64x128, extractStridedSlice S64x128 ![64, 0] (transpose S128x128 [1, 0] (aW m c) transposes_S128x128_S128x128_1_0) slices_S128x128_S64x128_64_0⟩]
      concatenates_S64x128_S64x128_S128x128_d0 := by
  dsimp only [w2p, V, hostOps0]; after_results; rfl

theorem brow_eq (c : Dev nD) :
    (brow m c : S1x128.Idx → EReal) = shapeCast S1x128 (aB m c) shapeCasts_S128_S1x128 := by
  dsimp only [brow, V, hostOps0]; after_results; rfl

theorem adj1r_eq (c : Dev nD) :
    (adj1r m c : S100x100x10000.Idx → EReal) = shapeCast S100x100x10000 (aA1 m c) shapeCasts_S10000x10000_S100x100x10000 := by
  dsimp only [adj1r, V, hostOps0]; after_results; rfl

theorem adj2r_eq (c : Dev nD) :
    (adj2r m c : S100x100x10000.Idx → EReal) = shapeCast S100x100x10000 (aA2 m c) shapeCasts_S10000x10000_S100x100x10000 := by
  dsimp only [adj2r, V, hostOps0]; after_results; rfl

/-! ## The built arrays at an index -/

theorem w1p_apply (c : Dev nD) (k q : Fin 128) :
    w1p m c (ix2 k q) = if k.val < 64 then aW m c (ix2 q k) else 0 :=
  (congrFun (w1p_eq m c) (ix2 k q)).trans (padLo_apply (aW m c) k q)

theorem w2p_apply (c : Dev nD) (k q : Fin 128) :
    w2p m c (ix2 k q) = if k.val < 64 then 0 else aW m c (ix2 q k) :=
  (congrFun (w2p_eq m c) (ix2 k q)).trans (padHi_apply (aW m c) k q)

theorem bias_apply (c : Dev nD) (q : Fin 128) : brow m c (ix2 (0 : Fin 1) q) = aB m c (ix1 q) :=
  (congrFun (brow_eq m c) (ix2 (0 : Fin 1) q)).trans (row_apply (aB m c) q)

theorem adj1_apply (c : Dev nD) (s p : Fin 100) (n : Fin 10000) :
    adj1r m c (ix3 s p n) = aA1 m c (ix2 (⟨100 * s.val + p.val, by have := s.isLt; have := p.isLt; omega⟩ : Fin 10000) n) :=
  (congrFun (adj1r_eq m c) (ix3 s p n)).trans (slab_apply (aA1 m c) s p n)

theorem adj2_apply (c : Dev nD) (s p : Fin 100) (n : Fin 10000) :
    adj2r m c (ix3 s p n) = aA2 m c (ix2 (⟨100 * s.val + p.val, by have := s.isLt; have := p.isLt; omega⟩ : Fin 10000) n) :=
  (congrFun (adj2r_eq m c) (ix3 s p n)).trans (slab_apply (aA2 m c) s p n)

end Cert.KernelIdeal.EntryValue

end
-- ==== Proof.Spec.lean ====
/-
  What both programs compute, index by index, over the extended reals.

  Row r of the result is  concat(adj1[r,:] · x[:, :64], adj2[r,:] · x[:, 64:]) · Wᵀ + b : column k of the
  aggregated features comes from the first adjacency for k < 64 and from the second for k ≥ 64 (`hid`), and
  entry (r, q) of the result is the sum over k of `hid r k * W (q, k)`, plus `b q` (`out`).

  The kernel never slices x: it multiplies each adjacency's row block by the whole x and then by a weight
  matrix whose unused half is zero (`kform`). The two agree term by term: a product with the zero entry
  is zero on the extended reals, whatever the other factor, and adding zero changes nothing. No finiteness
  of the inputs is used.
-/
import Idealize.ShloMosaic.PureOps.Ideal
import Idealize.ShloMosaic.Lib.ValueIdx

noncomputable section

namespace Cert.Spec

open Idealize.ShloMosaic Idealize.ShloMosaic.ValueIdx

abbrev SX : Shape := ⟨2, ![10000, 128]⟩
abbrev SA : Shape := ⟨2, ![10000, 10000]⟩
abbrev SW : Shape := ⟨2, ![128, 128]⟩
abbrev SB : Shape := ⟨1, ![128]⟩

/-- Entry (r, k) of the aggregated features: the first adjacency's row r against column k of x for k < 64,
    the second adjacency's for k ≥ 64. -/
def hid (x : FVec Ideal SX .f32) (a1 a2 : FVec Ideal SA .f32) (r : Fin 10000) (k : Fin 128) : EReal :=
  if k.val < 64 then ∑ n : Fin 10000, a1 (ix2 r n) * x (ix2 n k) else ∑ n : Fin 10000, a2 (ix2 r n) * x (ix2 n k)

/-- Entry (r, q) of the result: the aggregated row r against row q of W, plus the bias. -/
def out (x : FVec Ideal SX .f32) (a1 a2 : FVec Ideal SA .f32) (W : FVec Ideal SW .f32) (b : FVec Ideal SB .f32)
    (r : Fin 10000) (q : Fin 128) : EReal :=
  (∑ k : Fin 128, hid x a1 a2 r k * W (ix2 q k)) + b (ix1 q)

/-- The result as one function of the five argument arrays. -/
def G (x : FVec Ideal SX .f32) (a1 a2 : FVec Ideal SA .f32) (W : FVec Ideal SW .f32) (b : FVec Ideal SB .f32) :
    FVec Ideal SX .f32 := fun i => out x a1 a2 W b (i 0) (i 1)

theorem G_apply (x : FVec Ideal SX .f32) (a1 a2 : FVec Ideal SA .f32) (W : FVec Ideal SW .f32) (b : FVec Ideal SB .f32)
    (r : Fin 10000) (q : Fin 128) : G x a1 a2 W b (ix2 r q) = out x a1 a2 W b r q := rfl

/-- The kernel's arrangement of entry (r, q): each adjacency's row against the WHOLE x, then against a weight
    matrix that is W's transpose on its own half of the rows and zero on the other half. -/
def kform (x : FVec Ideal SX .f32) (a1 a2 : FVec Ideal SA .f32) (W : FVec Ideal SW .f32) (b : FVec Ideal SB .f32)
    (r : Fin 10000) (q : Fin 128) : EReal :=
  ((∑ k : Fin 128, (∑ n : Fin 10000, a1 (ix2 r n) * x (ix2 n k)) * (if k.val < 64 then W (ix2 q k) else 0))
    + (∑ k : Fin 128, (∑ n : Fin 10000, a2 (ix2 r n) * x (ix2 n k)) * (if k.val < 64 then 0 else W (ix2 q k))))
  + b (ix1 q)

/-- The two arrangements agree: under one sum over k, the term of the half that is zero drops out. -/
theorem kform_eq (x : FVec Ideal SX .f32) (a1 a2 : FVec Ideal SA .f32) (W : FVec Ideal SW .f32) (b : FVec Ideal SB .f32)
    (r : Fin 10000) (q : Fin 128) : kform x a1 a2 W b r q = out x a1 a2 W b r q := by
  unfold kform out
  congr 1
  rw [← Finset.sum_add_distrib]
  refine Finset.sum_congr rfl fun k _ => ?_
  unfold hid
  by_cases hk : k.val < 64
  · rw [if_pos hk, if_pos hk, if_pos hk, mul_zero, add_zero]
  · rw [if_neg hk, if_neg hk, if_neg hk, mul_zero, zero_add]

end Cert.Spec

end
-- ==== Proof.KValue.lean ====
/-
  The result array after the run is the specification's function of the argument arrays.

  Grid step t writes back rows 200 t … 200 t + 199. Row 200 t + r of the block is, for r < 100, slab 2 t's row r of
  each regrouped adjacency — row 100 (2 t) + r = 200 t + r of the matrix — and for r ≥ 100 slab 2 t + 1's row r − 100,
  row 100 (2 t + 1) + (r − 100) = 200 t + r again. So every entry the step writes is the kernel's arrangement
  (`Spec.kform`) at the matrix row it lands on, which is the specification's entry (`Spec.kform_eq`). The fifty
  blocks tile the 10000 rows, so the whole array ends at `Spec.G`.
-/
import proofs.«144177_g50706383897209_cont_8to1c4_452_20_alg».proof.Proof.FrameDefs
import proofs.«144177_g50706383897209_cont_8to1c4_452_20_alg».proof.Proof.BlockValue
import proofs.«144177_g50706383897209_cont_8to1c4_452_20_alg».proof.Proof.EntryValue
import proofs.«144177_g50706383897209_cont_8to1c4_452_20_alg».proof.Proof.Spec
import Idealize.ShloMosaic.Lib.ValueIdx
import Idealize.ShloMosaic.Lib.Pipeline.Value

set_option maxRecDepth 16384

noncomputable section

namespace Cert.KernelIdeal.KValue

open Cert.KernelIdeal Cert.KernelIdeal.Gen Cert.KernelIdeal.Fr Cert.KernelIdeal.BlockValue Cert.KernelIdeal.EntryValue
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-- The specification's function of core `c`'s argument arrays. -/
abbrev Gc (c : Dev nD) : FVec Ideal S10000x128 .f32 := Cert.Spec.G (aX m c) (aA1 m c) (aA2 m c) (aW m c) (aB m c)

theorem t_lt (t : Fin cfg0.N) : t.val < 50 := lt_of_lt_of_eq t.isLt N_0

/-- The eight input blocks at step `t`, at their literal types. -/
abbrev b0 (c : Dev nD) (t : Fin cfg0.N) : Vec Ideal S1x100x10000 .f32 := iblk m c 0 t
abbrev b1 (c : Dev nD) (t : Fin cfg0.N) : Vec Ideal S1x100x10000 .f32 := iblk m c 1 t
abbrev b2 (c : Dev nD) (t : Fin cfg0.N) : Vec Ideal S1x100x10000 .f32 := iblk m c 2 t
abbrev b3 (c : Dev nD) (t : Fin cfg0.N) : Vec Ideal S1x100x10000 .f32 := iblk m c 3 t
abbrev b4 (c : Dev nD) (t : Fin cfg0.N) : Vec Ideal S10000x128 .f32 := iblk m c 4 t
abbrev b5 (c : Dev nD) (t : Fin cfg0.N) : Vec Ideal S128x128 .f32 := iblk m c 5 t
abbrev b6 (c : Dev nD) (t : Fin cfg0.N) : Vec Ideal S128x128 .f32 := iblk m c 6 t
abbrev b7 (c : Dev nD) (t : Fin cfg0.N) : Vec Ideal S1x128 .f32 := iblk m c 7 t

/-- The printed index maps over the grid: the adjacency windows sit on slabs 2 t and 2 t + 1, the whole-array windows
    on block 0, the result's window on block t. -/
theorem idx_facts : ∀ t : Fin cfg0.N,
    win0_0.index t (0 : Fin 3) = 2 * t.val ∧ win0_0.index t (1 : Fin 3) = 0 ∧ win0_0.index t (2 : Fin 3) = 0
    ∧ win0_1.index t (0 : Fin 3) = 2 * t.val + 1 ∧ win0_1.index t (1 : Fin 3) = 0 ∧ win0_1.index t (2 : Fin 3) = 0
    ∧ win0_2.index t (0 : Fin 3) = 2 * t.val ∧ win0_2.index t (1 : Fin 3) = 0 ∧ win0_2.index t (2 : Fin 3) = 0
    ∧ win0_3.index t (0 : Fin 3) = 2 * t.val + 1 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-! ## The input blocks, read -/

theorem b0_apply (c : Dev nD) (t : Fin cfg0.N) (p : Fin 100) (n : Fin 10000) (r : Fin 10000) (hr : r.val = 200 * t.val + p.val) :
    b0 m c t (ix3 (0 : Fin 1) p n) = aA1 m c (ix2 r n) := by
  obtain ⟨e00, e01, e02, e10, e11, e12, e20, e21, e22, e30, e31, e32, -⟩ := idx_facts t
  have h1 : b0 m c t (ix3 (0 : Fin 1) p n) = adj1r m c (ix3 (⟨2 * t.val, by have := t_lt t; omega⟩ : Fin 100) p n) := by
    show adj1r m c (((cfg0.win 0).blk t).view.emb (ix3 (0 : Fin 1) p n)) = _
    congr 1
    funext a; apply Fin.ext
    match a with
    | ⟨0, _⟩ => show win0_0.index t (0 : Fin 3) * 1 + 1 * 0 = 2 * t.val; omega
    | ⟨1, _⟩ => show win0_0.index t (1 : Fin 3) * 100 + 1 * p.val = p.val; omega
    | ⟨2, _⟩ => show win0_0.index t (2 : Fin 3) * 10000 + 1 * n.val = n.val; omega
  rw [h1, adj1_apply]
  exact congrArg (fun r' => aA1 m c (ix2 r' n)) (Fin.ext (by show 100 * (2 * t.val) + p.val = r.val; omega))

theorem b1_apply (c : Dev nD) (t : Fin cfg0.N) (p : Fin 100) (n : Fin 10000) (r : Fin 10000) (hr : r.val = 200 * t.val + 100 + p.val) :
    b1 m c t (ix3 (0 : Fin 1) p n) = aA1 m c (ix2 r n) := by
  obtain ⟨e00, e01, e02, e10, e11, e12, e20, e21, e22, e30, e31, e32, -⟩ := idx_facts t
  have h1 : b1 m c t (ix3 (0 : Fin 1) p n) = adj1r m c (ix3 (⟨2 * t.val + 1, by have := t_lt t; omega⟩ : Fin 100) p n) := by
    show adj1r m c (((cfg0.win 1).blk t).view.emb (ix3 (0 : Fin 1) p n)) = _
    congr 1
    funext a; apply Fin.ext
    match a with
    | ⟨0, _⟩ => show win0_1.index t (0 : Fin 3) * 1 + 1 * 0 = 2 * t.val + 1; omega
    | ⟨1, _⟩ => show win0_1.index t (1 : Fin 3) * 100 + 1 * p.val = p.val; omega
    | ⟨2, _⟩ => show win0_1.index t (2 : Fin 3) * 10000 + 1 * n.val = n.val; omega
  rw [h1, adj1_apply]
  exact congrArg (fun r' => aA1 m c (ix2 r' n)) (Fin.ext (by show 100 * (2 * t.val + 1) + p.val = r.val; omega))

theorem b2_apply (c : Dev nD) (t : Fin cfg0.N) (p : Fin 100) (n : Fin 10000) (r : Fin 10000) (hr : r.val = 200 * t.val + p.val) :
    b2 m c t (ix3 (0 : Fin 1) p n) = aA2 m c (ix2 r n) := by
  obtain ⟨e00, e01, e02, e10, e11, e12, e20, e21, e22, e30, e31, e32, -⟩ := idx_facts t
  have h1 : b2 m c t (ix3 (0 : Fin 1) p n) = adj2r m c (ix3 (⟨2 * t.val, by have := t_lt t; omega⟩ : Fin 100) p n) := by
    show adj2r m c (((cfg0.win 2).blk t).view.emb (ix3 (0 : Fin 1) p n)) = _
    congr 1
    funext a; apply Fin.ext
    match a with
    | ⟨0, _⟩ => show win0_2.index t (0 : Fin 3) * 1 + 1 * 0 = 2 * t.val; omega
    | ⟨1, _⟩ => show win0_2.index t (1 : Fin 3) * 100 + 1 * p.val = p.val; omega
    | ⟨2, _⟩ => show win0_2.index t (2 : Fin 3) * 10000 + 1 * n.val = n.val; omega
  rw [h1, adj2_apply]
  exact congrArg (fun r' => aA2 m c (ix2 r' n)) (Fin.ext (by show 100 * (2 * t.val) + p.val = r.val; omega))

theorem b3_apply (c : Dev nD) (t : Fin cfg0.N) (p : Fin 100) (n : Fin 10000) (r : Fin 10000) (hr : r.val = 200 * t.val + 100 + p.val) :
    b3 m c t (ix3 (0 : Fin 1) p n) = aA2 m c (ix2 r n) := by
  obtain ⟨e00, e01, e02, e10, e11, e12, e20, e21, e22, e30, e31, e32, -⟩ := idx_facts t
  have h1 : b3 m c t (ix3 (0 : Fin 1) p n) = adj2r m c (ix3 (⟨2 * t.val + 1, by have := t_lt t; omega⟩ : Fin 100) p n) := by
    show adj2r m c (((cfg0.win 3).blk t).view.emb (ix3 (0 : Fin 1) p n)) = _
    congr 1
    funext a; apply Fin.ext
    match a with
    | ⟨0, _⟩ => show win0_3.index t (0 : Fin 3) * 1 + 1 * 0 = 2 * t.val + 1; omega
    | ⟨1, _⟩ => show win0_3.index t (1 : Fin 3) * 100 + 1 * p.val = p.val; omega
    | ⟨2, _⟩ => show win0_3.index t (2 : Fin 3) * 10000 + 1 * n.val = n.val; omega
  rw [h1, adj2_apply]
  exact congrArg (fun r' => aA2 m c (ix2 r' n)) (Fin.ext (by show 100 * (2 * t.val + 1) + p.val = r.val; omega))

/-- x as the region finds it is x as launched. -/
abbrev xr (c : Dev nD) : FVec Ideal S10000x128 .f32 := V m c main_arg0
theorem xr_eq (c : Dev nD) : xr m c = aX m c := V_main_arg0 m c

theorem b4_apply (c : Dev nD) (t : Fin cfg0.N) (n : Fin 10000) (k : Fin 128) :
    b4 m c t (ix2 n k) = xr m c (ix2 n k) := by
  obtain ⟨-, -, -, -, -, -, -, -, -, -, -, -, e40, e41, e50, e51, e60, e61, e70, e71, -⟩ := idx_facts t
  show xr m c (((cfg0.win 4).blk t).view.emb (ix2 n k)) = _
  congr 1
  funext a; apply Fin.ext
  match a with
  | ⟨0, _⟩ => show win0_4.index t (0 : Fin 2) * 10000 + 1 * n.val = n.val; omega
  | ⟨1, _⟩ => show win0_4.index t (1 : Fin 2) * 128 + 1 * k.val = k.val; omega

theorem b5_apply (c : Dev nD) (t : Fin cfg0.N) (k q : Fin 128) :
    b5 m c t (ix2 k q) = w1p m c (ix2 k q) := by
  obtain ⟨-, -, -, -, -, -, -, -, -, -, -, -, e40, e41, e50, e51, e60, e61, e70, e71, -⟩ := idx_facts t
  show w1p m c (((cfg0.win 5).blk t).view.emb (ix2 k q)) = _
  congr 1
  funext a; apply Fin.ext
  match a with
  | ⟨0, _⟩ => show win0_5.index t (0 : Fin 2) * 128 + 1 * k.val = k.val; omega
  | ⟨1, _⟩ => show win0_5.index t (1 : Fin 2) * 128 + 1 * q.val = q.val; omega

theorem b6_apply (c : Dev nD) (t : Fin cfg0.N) (k q : Fin 128) :
    b6 m c t (ix2 k q) = w2p m c (ix2 k q) := by
  obtain ⟨-, -, -, -, -, -, -, -, -, -, -, -, e40, e41, e50, e51, e60, e61, e70, e71, -⟩ := idx_facts t
  show w2p m c (((cfg0.win 6).blk t).view.emb (ix2 k q)) = _
  congr 1
  funext a; apply Fin.ext
  match a with
  | ⟨0, _⟩ => show win0_6.index t (0 : Fin 2) * 128 + 1 * k.val = k.val; omega
  | ⟨1, _⟩ => show win0_6.index t (1 : Fin 2) * 128 + 1 * q.val = q.val; omega

theorem b7_apply (c : Dev nD) (t : Fin cfg0.N) (q : Fin 128) :
    b7 m c t (ix2 (0 : Fin 1) q) = brow m c (ix2 (0 : Fin 1) q) := by
  obtain ⟨-, -, -, -, -, -, -, -, -, -, -, -, e40, e41, e50, e51, e60, e61, e70, e71, -⟩ := idx_facts t
  show brow m c (((cfg0.win 7).blk t).view.emb (ix2 (0 : Fin 1) q)) = _
  congr 1
  funext a; apply Fin.ext
  match a with
  | ⟨0, _⟩ => show win0_7.index t (0 : Fin 2) * 1 + 1 * 0 = 0; omega
  | ⟨1, _⟩ => show win0_7.index t (1 : Fin 2) * 128 + 1 * q.val = q.val; omega

/-! ## A block's rows are rows of the specification -/

theorem row_upper (c : Dev nD) (t : Fin cfg0.N) (p : Fin 100) (q : Fin 128) (r : Fin 10000) (hr : r.val = 200 * t.val + p.val) :
    half (b0 m c t) (b2 m c t) (b4 m c t) (b5 m c t) (b6 m c t) (b7 m c t) p q = Gc m c (ix2 r q) := by
  refine Eq.trans ?_ ((Cert.Spec.kform_eq (aX m c) (aA1 m c) (aA2 m c) (aW m c) (aB m c) r q).trans
    (Cert.Spec.G_apply (aX m c) (aA1 m c) (aA2 m c) (aW m c) (aB m c) r q).symm)
  unfold half Cert.Spec.kform
  simp only [fun n => b0_apply m c t p n r hr, fun n => b2_apply m c t p n r hr, b4_apply, b5_apply, b6_apply, b7_apply,
    xr_eq m c, w1p_apply m c, w2p_apply m c, bias_apply m c]

theorem row_lower (c : Dev nD) (t : Fin cfg0.N) (p : Fin 100) (q : Fin 128) (r : Fin 10000) (hr : r.val = 200 * t.val + 100 + p.val) :
    half (b1 m c t) (b3 m c t) (b4 m c t) (b5 m c t) (b6 m c t) (b7 m c t) p q = Gc m c (ix2 r q) := by
  refine Eq.trans ?_ ((Cert.Spec.kform_eq (aX m c) (aA1 m c) (aA2 m c) (aW m c) (aB m c) r q).trans
    (Cert.Spec.G_apply (aX m c) (aA1 m c) (aA2 m c) (aW m c) (aB m c) r q).symm)
  unfold half Cert.Spec.kform
  simp only [fun n => b1_apply m c t p n r hr, fun n => b3_apply m c t p n r hr, b4_apply, b5_apply, b6_apply, b7_apply,
    xr_eq m c, w1p_apply m c, w2p_apply m c, bias_apply m c]

/-- Entry (r, q) of the block step `t` leaves is the specification's entry at row 200 t + r. -/
theorem block_entry (c : Dev nD) (t : Fin cfg0.N) (r : Fin 200) (q : Fin 128) (R : Fin 10000) (hR : R.val = 200 * t.val + r.val) :
    blockOut (b0 m c t) (b1 m c t) (b2 m c t) (b3 m c t) (b4 m c t) (b5 m c t) (b6 m c t) (b7 m c t) (ix2 r q) = Gc m c (ix2 R q) := by
  obtain ⟨rv, hrv⟩ := r
  by_cases h : rv < 100
  · exact (blockOut_upper _ _ _ _ _ _ _ _ ⟨rv, h⟩ q).trans (row_upper m c t ⟨rv, h⟩ q R hR)
  · have e : (⟨rv, hrv⟩ : Fin 200) = ⟨100 + (⟨rv - 100, by omega⟩ : Fin 100).val, by show 100 + (rv - 100) < 200; omega⟩ :=
      Fin.ext (by show rv = 100 + (rv - 100); omega)
    rw [e]
    exact (blockOut_lower _ _ _ _ _ _ _ _ ⟨rv - 100, by omega⟩ q).trans
      (row_lower m c t ⟨rv - 100, by omega⟩ q R (by show R.val = 200 * t.val + 100 + (rv - 100); have : R.val = 200 * t.val + rv := hR; omega))

/-! ## What a step writes back, the cover, the final array -/

/-- WHAT STEP `t` WRITES BACK is block `t` of the specification's array. -/
theorem flushed_eq (c : Dev nD) (t : Fin cfg0.N) :
    (dats m 0 c).flushed 8 t = ((cfg0.win 8).blk t).view.read (Elt Ideal) (Gc m c) := by
  show (cfg0.win 8).cut (grid0.coords t) ((dats m 0 c).after 8 t) = _
  rw [after0_8]
  obtain ⟨-, -, -, -, -, -, -, -, -, -, -, -, -, -, -, -, -, -, -, -, e80, e81⟩ := idx_facts t
  funext j
  have hj0 : (j 0).val < 200 := (j 0).isLt
  have hj1 : (j 1).val < 128 := (j 1).isLt
  have ht := t_lt t
  show blockOut (b0 m c t) (b1 m c t) (b2 m c t) (b3 m c t) (b4 m c t) (b5 m c t) (b6 m c t) (b7 m c t) j
    = Gc m c (((cfg0.win 8).blk t).view.emb j)
  have hemb : ((cfg0.win 8).blk t).view.emb j = ix2 (⟨200 * t.val + (j 0).val, by omega⟩ : Fin 10000) (⟨(j 1).val, hj1⟩ : Fin 128) := by
    funext a; apply Fin.ext
    match a with
    | ⟨0, _⟩ => show win0_8.index t (0 : Fin 2) * 200 + 1 * (j 0).val = 200 * t.val + (j 0).val; omega
    | ⟨1, _⟩ => show win0_8.index t (1 : Fin 2) * 128 + 1 * (j 1).val = (j 1).val; omega
  have hjx : j = ix2 (⟨(j 0).val, hj0⟩ : Fin 200) (⟨(j 1).val, hj1⟩ : Fin 128) := by
    funext a; apply Fin.ext
    match a with
    | ⟨0, _⟩ => rfl
    | ⟨1, _⟩ => rfl
  rw [hemb]
  exact (congrArg _ hjx).trans (block_entry m c t ⟨(j 0).val, hj0⟩ ⟨(j 1).val, hj1⟩ _ rfl)

/-- An index of the array is in step `t`'s block iff each coordinate is in the block's range on its axis. -/
theorem mem_blk (t : Fin cfg0.N) (i : S10000x128.Idx) :
    i ∈ ((cfg0.win 8).blk t).view.set ↔ ∀ a : Fin 2, win0_8.index t a * S200x128.size a ≤ (i a).val ∧ (i a).val < win0_8.index t a * S200x128.size a + S200x128.size a := by
  show i ∈ ((View.whole main_v0).slice (win0_8.rect t)).set ↔ _
  rw [View.set_slice_whole, Rect.mem_set_unit]
  exact Iff.rfl

/-- Every row lies in the block of step ⌊row / 200⌋. -/
theorem cover (i : S10000x128.Idx) : ∃ t : Fin cfg0.N, (cfg0.win 8).flush t = true ∧ i ∈ ((cfg0.win 8).blk t).view.set := by
  have hi0 : (i 0).val < 10000 := (i 0).isLt
  have hi1 : (i 1).val < 128 := (i 1).isLt
  let t : Fin cfg0.N := ⟨(i 0).val / 200, by show (i 0).val / 200 < grid0.N; rw [N_0]; omega⟩
  obtain ⟨-, -, -, -, -, -, -, -, -, -, -, -, -, -, -, -, -, -, -, -, e80, e81⟩ := idx_facts t
  have e80' : win0_8.index t (0 : Fin 2) = (i 0).val / 200 := e80
  refine ⟨t, flush0_8 t, ?_⟩
  rw [mem_blk]
  intro a
  match a with
  | ⟨0, _⟩ => show win0_8.index t (0 : Fin 2) * 200 ≤ (i 0).val ∧ (i 0).val < win0_8.index t (0 : Fin 2) * 200 + 200; omega
  | ⟨1, _⟩ => show win0_8.index t (1 : Fin 2) * 128 ≤ (i 1).val ∧ (i 1).val < win0_8.index t (1 : Fin 2) * 128 + 128; omega

/-- THE RESULT ARRAY after the run is the specification's function of the argument arrays. -/
theorem final_out (c : Dev nD) : (dats m 0 c).arrAt 8 cfg0.N = Gc m c :=
  (dats m 0 c).arrAt_eq_of_cover 8 (Gc m c) (fun t _ => flushed_eq m c t) (cover)

end Cert.KernelIdeal.KValue

end
-- ==== Proof.RefValue.lean ====
/-
  The reference's result, operation by operation, is the function `Cert.Spec.G` of the argument arrays.

  Entry (r, q) of the result is the sum over k of entry (r, k) of the joined features times entry (k, q) of the
  transposed weights, plus entry q of the bias. The joined features are, for k < 64, the first adjacency's row r
  against column k of the first slice of x, which is column k of x; for k ≥ 64, the second adjacency's row r
  against column k − 64 of the second slice of x, which is column k of x again. The transposed weights at (k, q)
  are the weights at (q, k), and the twice-broadcast bias at (r, q) is the bias at q. Each stage is read at explicit
  coordinates; no finiteness of the inputs is used.
-/
import proofs.«144177_g50706383897209_cont_8to1c4_452_20_alg».proof.Proof.Gen.ReferenceIdeal.Read
import proofs.«144177_g50706383897209_cont_8to1c4_452_20_alg».proof.Proof.Spec
import proofs.«144177_g50706383897209_cont_8to1c4_452_20_alg».proof.Proof.LibMatmul
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The first slice of x at (n, j) is x at (n, k) for the column k of x with the same number as j. -/
theorem v0_at (x : (⟨S10000x128, .f32⟩ : BufTy).Contents (Elt Ideal)) (n : Fin 10000) (j : Fin 64) (k : Fin 128)
    (hjk : k.val = j.val) : val_main_v0 (F := Ideal) x (ix2 n j) = x (ix2 n k) := by
  rw [val_main_v0_apply]
  refine congrArg x (funext fun a => Fin.ext ?_)
  match a with
  | ⟨0, _⟩ => rfl
  | ⟨1, _⟩ => exact hjk.symm

/-- The second slice of x at (n, j) is x at (n, k) for the column k of x numbered 64 + j. -/
theorem v1_at (x : (⟨S10000x128, .f32⟩ : BufTy).Contents (Elt Ideal)) (n : Fin 10000) (j : Fin 64) (k : Fin 128)
    (hjk : k.val = 64 + j.val) : val_main_v1 (F := Ideal) x (ix2 n j) = x (ix2 n k) := by
  rw [val_main_v1_apply]
  refine congrArg x (funext fun a => Fin.ext ?_)
  match a with
  | ⟨0, _⟩ => rfl
  | ⟨1, _⟩ => exact hjk.symm

/-- The first product at (r, j): the first adjacency's row r against column k of x, k numbered as j. -/
theorem v2_at (x : (⟨S10000x128, .f32⟩ : BufTy).Contents (Elt Ideal)) (a1 : (⟨S10000x10000, .f32⟩ : BufTy).Contents (Elt Ideal))
    (r : Fin 10000) (j : Fin 64) (k : Fin 128) (hjk : k.val = j.val) :
    val_main_v2 (F := Ideal) x a1 (ix2 r j) = ∑ n : Fin 10000, a1 (ix2 r n) * x (ix2 n k) := by
  rw [val_main_v2_apply]
  refine Finset.sum_congr rfl fun n _ => ?_
  have el : lidx_main_v2 (ix2 r j) n = ix2 r n := funext fun a => Fin.ext (by
    match a with
    | ⟨0, _⟩ => rfl
    | ⟨1, _⟩ => rfl)
  have er : ridx_main_v2 (ix2 r j) n = ix2 n j := funext fun a => Fin.ext (by
    match a with
    | ⟨0, _⟩ => rfl
    | ⟨1, _⟩ => rfl)
  rw [el, er, v0_at x n j k hjk]

/-- The second product at (r, j): the second adjacency's row r against column k of x, k numbered 64 + j. -/
theorem v3_at (x : (⟨S10000x128, .f32⟩ : BufTy).Contents (Elt Ideal)) (a2 : (⟨S10000x10000, .f32⟩ : BufTy).Contents (Elt Ideal))
    (r : Fin 10000) (j : Fin 64) (k : Fin 128) (hjk : k.val = 64 + j.val) :
    val_main_v3 (F := Ideal) x a2 (ix2 r j) = ∑ n : Fin 10000, a2 (ix2 r n) * x (ix2 n k) := by
  rw [val_main_v3_apply]
  refine Finset.sum_congr rfl fun n _ => ?_
  have el : lidx_main_v3 (ix2 r j) n = ix2 r n := funext fun a => Fin.ext (by
    match a with
    | ⟨0, _⟩ => rfl
    | ⟨1, _⟩ => rfl)
  have er : ridx_main_v3 (ix2 r j) n = ix2 n j := funext fun a => Fin.ext (by
    match a with
    | ⟨0, _⟩ => rfl
    | ⟨1, _⟩ => rfl)
  rw [el, er, v1_at x n j k hjk]

/-- The joined features at (r, k) for k < 64: the first product at (r, k). -/
theorem v4_lt (x : (⟨S10000x128, .f32⟩ : BufTy).Contents (Elt Ideal)) (a1 a2 : (⟨S10000x10000, .f32⟩ : BufTy).Contents (Elt Ideal))
    (r : Fin 10000) (k : Fin 128) (hk : k.val < 64) :
    val_main_v4 (F := Ideal) x a1 a2 (ix2 r k) = ∑ n : Fin 10000, a1 (ix2 r n) * x (ix2 n k) := by
  unfold val_main_v4
  rw [concatenate_pair_apply_left (1 : Fin S10000x128.rank) (val_main_v2 (F := Ideal) x a1) (val_main_v3 (F := Ideal) x a2)
    concatenates_S10000x64_S10000x64_S10000x128_d1 (ix2 r k) rfl (ix2 r (⟨k.val, hk⟩ : Fin 64)) (fun b => by
      match b with
      | ⟨0, _⟩ => rfl
      | ⟨1, _⟩ => rfl)]
  exact v2_at x a1 r ⟨k.val, hk⟩ k rfl

/-- The joined features at (r, k) for k ≥ 64: the second product at (r, k − 64). -/
theorem v4_ge (x : (⟨S10000x128, .f32⟩ : BufTy).Contents (Elt Ideal)) (a1 a2 : (⟨S10000x10000, .f32⟩ : BufTy).Contents (Elt Ideal))
    (r : Fin 10000) (k : Fin 128) (hk : ¬ k.val < 64) :
    val_main_v4 (F := Ideal) x a1 a2 (ix2 r k) = ∑ n : Fin 10000, a2 (ix2 r n) * x (ix2 n k) := by
  have hk' : k.val - 64 < 64 := by have := k.isLt; omega
  unfold val_main_v4
  rw [concatenate_pair_apply_right (1 : Fin S10000x128.rank) (val_main_v2 (F := Ideal) x a1) (val_main_v3 (F := Ideal) x a2)
    concatenates_S10000x64_S10000x64_S10000x128_d1 (ix2 r k) rfl rfl (ix2 r (⟨k.val - 64, hk'⟩ : Fin 64)) (fun b hb => by
      match b, hb with
      | ⟨0, _⟩, _ => rfl
      | ⟨1, _⟩, hb => exact absurd rfl hb)
    (by show (k.val - 64) + 64 = k.val; omega)]
  exact v3_at x a2 r ⟨k.val - 64, hk'⟩ k (by show k.val = 64 + (k.val - 64); omega)

/-- The transposed weights at (k, q) are the weights at (q, k). -/
theorem v5_at (W : (⟨S128x128, .f32⟩ : BufTy).Contents (Elt Ideal)) (k q : Fin 128) :
    val_main_v5 (F := Ideal) W (ix2 k q) = W (ix2 q k) := by
  rw [val_main_v5_apply]
  refine congrArg W (funext fun a => Fin.ext ?_)
  match a with
  | ⟨0, _⟩ => rfl
  | ⟨1, _⟩ => rfl

/-- The bias broadcast to one row and then down the rows, at (r, q), is the bias at q. -/
theorem v8_at (b : (⟨S128, .f32⟩ : BufTy).Contents (Elt Ideal)) (r : Fin 10000) (q : Fin 128) :
    val_main_v8 (F := Ideal) b (ix2 r q) = b (ix1 q) := by
  rw [val_main_v8_apply, val_main_v7_apply]
  refine congrArg b (funext fun a => Fin.ext ?_)
  match a with
  | ⟨0, _⟩ => rfl

/-- The second-layer product at (r, q): the sum over k of the aggregated entry (r, k) times the weight (q, k). -/
theorem v6_at (x : (⟨S10000x128, .f32⟩ : BufTy).Contents (Elt Ideal)) (a1 a2 : (⟨S10000x10000, .f32⟩ : BufTy).Contents (Elt Ideal))
    (W : (⟨S128x128, .f32⟩ : BufTy).Contents (Elt Ideal)) (r : Fin 10000) (q : Fin 128) :
    val_main_v6 (F := Ideal) x a1 a2 W (ix2 r q) = ∑ k : Fin 128, Cert.Spec.hid x a1 a2 r k * W (ix2 q k) := by
  rw [val_main_v6_apply]
  refine Finset.sum_congr rfl fun k _ => ?_
  have el : lidx_main_v6 (ix2 r q) k = ix2 r k := funext fun a => Fin.ext (by
    match a with
    | ⟨0, _⟩ => rfl
    | ⟨1, _⟩ => rfl)
  have er : ridx_main_v6 (ix2 r q) k = ix2 k q := funext fun a => Fin.ext (by
    match a with
    | ⟨0, _⟩ => rfl
    | ⟨1, _⟩ => rfl)
  rw [el, er, v5_at W k q]
  refine congrArg (· * W (ix2 q k)) ?_
  unfold Cert.Spec.hid
  by_cases hk : k.val < 64
  · rw [if_pos hk]; exact v4_lt x a1 a2 r k hk
  · rw [if_neg hk]; exact v4_ge x a1 a2 r k hk

/-- The reference's result term, at Ideal, is the specification's function of the five argument arrays. -/
theorem result_eq (x : (⟨Cert.ReferenceIdeal.S10000x128, .f32⟩ : BufTy).Contents (Elt Ideal))
    (a1 a2 : (⟨Cert.ReferenceIdeal.S10000x10000, .f32⟩ : BufTy).Contents (Elt Ideal))
    (W : (⟨Cert.ReferenceIdeal.S128x128, .f32⟩ : BufTy).Contents (Elt Ideal))
    (b : (⟨Cert.ReferenceIdeal.S128, .f32⟩ : BufTy).Contents (Elt Ideal)) :
    Cert.ReferenceIdeal.Read.val_main_v9 (F := Ideal) x a1 a2 W b = Cert.Spec.G x a1 a2 W b := by
  funext i
  obtain ⟨r, q, rfl⟩ : ∃ (r : Fin 10000) (q : Fin 128), i = ix2 r q := ⟨i 0, i 1, eq_ix2 i⟩
  rw [Cert.Spec.G_apply]
  unfold Cert.Spec.out
  rw [val_main_v9_apply, v6_at x a1 a2 W r q, v8_at b r q, Ideal.addf_def]

/-- The reference's run with its result named by the specification. -/
theorem run_G (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread _ _).loc Cert.ReferenceIdeal.main_v9)
        = Cert.Spec.G (m ((c.tc : Thread _ _).loc Cert.ReferenceIdeal.main_arg0))
            (m ((c.tc : Thread _ _).loc Cert.ReferenceIdeal.main_arg1))
            (m ((c.tc : Thread _ _).loc Cert.ReferenceIdeal.main_arg2))
            (m ((c.tc : Thread _ _).loc Cert.ReferenceIdeal.main_arg3))
            (m ((c.tc : Thread _ _).loc Cert.ReferenceIdeal.main_arg4))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)
      ∧ r.2.mem ((c.tc : Thread _ _).loc Cert.ReferenceIdeal.main_arg3) = m ((c.tc : Thread _ _).loc Cert.ReferenceIdeal.main_arg3)
      ∧ r.2.mem ((c.tc : Thread _ _).loc Cert.ReferenceIdeal.main_arg4) = m ((c.tc : Thread _ _).loc Cert.ReferenceIdeal.main_arg4) :=
  (θ_run _ _ _).mono (fun _ h c => ⟨(h c).1.trans ((val_main_v9_eq _ _ _ _ _).trans (result_eq _ _ _ _ _)), (h c).2⟩)
    (Cert.ReferenceIdeal.Value.run (F := Ideal) m ρ)

end Cert.ReferenceIdeal.RefValue

end
-- ==== Proof.lean ====
/-
  The five claims of this certificate.

  Both programs compute, at every row r and column q,
      (sum over k of h(r, k) · W(q, k)) + b(q),
  where h(r, k) is row r of the first adjacency against column k of x for k < 64, and row r of the second adjacency
  against column k of x for k ≥ 64 (`Cert.Spec`). The reference slices x, multiplies, concatenates and projects; the
  kernel multiplies each adjacency's row block by the whole x and projects through a weight matrix whose unused half is
  zero, so that the terms of the other half vanish — a product with zero is zero on the extended reals whatever the
  other factor — and the two sums agree term by term. No finiteness of the inputs is used.

  The kernel's frames: the host builds the padded weights, the bias row and the regrouped adjacencies; the region's
  fifty steps each read two slabs of each adjacency through two windows on one array — that array's ownership is
  dealt to the two windows in halves — and write two hundred rows of the result; nothing else is touched, so the
  five arguments end as they began (`Fr.frame`, once for each reading of the program). The reference's frame is its
  run with the result dropped. The ideal pass rewrote nothing, so `preserves` asks nothing.
-/
import proofs.«144177_g50706383897209_cont_8to1c4_452_20_alg».proof.Defs
import proofs.«144177_g50706383897209_cont_8to1c4_452_20_alg».proof.Proof.Gen.Kernel
import proofs.«144177_g50706383897209_cont_8to1c4_452_20_alg».proof.Proof.Gen.KernelIdeal
import proofs.«144177_g50706383897209_cont_8to1c4_452_20_alg».proof.Proof.Gen.ReferenceIdeal
import proofs.«144177_g50706383897209_cont_8to1c4_452_20_alg».proof.Proof.Gen.Pre_finite_inputs
import proofs.«144177_g50706383897209_cont_8to1c4_452_20_alg».proof.Proof.KFrameRun
import proofs.«144177_g50706383897209_cont_8to1c4_452_20_alg».proof.Proof.FrameRun
import proofs.«144177_g50706383897209_cont_8to1c4_452_20_alg».proof.Proof.KValue
import proofs.«144177_g50706383897209_cont_8to1c4_452_20_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the specification's function of the argument arrays, which agree. -/
theorem algebraic : Cert.algebraic_KernelIdeal_ReferenceIdeal := by
  intro m ρ m' ρ' _ hagree
  refine ⟨fun c => Cert.KernelIdeal.KValue.Gc m c, ?_, ?_⟩
  · exact (θ_run Cert.KernelIdeal.defs _ _).mono
      (fun _ h c => ⟨(h c).1.trans (Cert.KernelIdeal.KValue.final_out m c), (h c).2⟩) (Cert.KernelIdeal.Fr.run_out m ρ)
  · refine (θ_run Cert.ReferenceIdeal.defs _ _).mono (fun _ h c => ⟨(h c).1.trans ?_, (h c).2⟩)
      (Cert.ReferenceIdeal.RefValue.run_G m' ρ')
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
